-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S4096x10 : Shape := ⟨2, ![4096, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S4096x10 : S_.BroadcastsInDim S4096x10 (![] : Fin 0 → Fin S4096x10.rank)
  reducesTo_S4096x10_S_d0_1 : S4096x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S64 .f32) (main_arg6 : FVec F S4096x10 .f32) (main_arg7 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4096x10 .f32 := Host.absf main_arg6
  let main_cst_8 : FVec F S_ .f32 := constant S_ .f32 0x7F800000#32
  let main_v25 : FVec F S4096x10 .f32 := broadcastInDim S4096x10 ![] bcast_S_S4096x10 main_cst_8
  let main_v26 : IVec S4096x10 1 := cmpf .olt main_v24 main_v25
  let main_c_9 : IVec S_ 1 := constantI S_ 1 1#1
  let main_v27 : IVec S_ 1 := (fun x v => Host.reduce IntOp.andi x v reducesTo_S4096x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x64 .f32) (main_arg3 : FVec F S64 .f32) (main_arg4 : FVec F S64x64 .f32) (main_arg5 : FVec F S64 .f32) (main_arg6 : FVec F S4096x10 .f32) (main_arg7 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S4096x10 : Shape := ⟨2, ![4096, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S1x10 : Shape := ⟨2, ![1, 10]⟩
abbrev S64x64x10 : Shape := ⟨3, ![64, 64, 10]⟩
abbrev S64x10 : Shape := ⟨2, ![64, 10]⟩
abbrev S64x1 : Shape := ⟨2, ![64, 1]⟩
abbrev S1x64x10 : Shape := ⟨3, ![1, 64, 10]⟩
abbrev S1 : Shape := ⟨1, ![1]⟩
abbrev S1x1 : Shape := ⟨2, ![1, 1]⟩

abbrev nBuf : Space → Nat
  | .hbm => 85
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S4096x10, .f32⟩
  | .hbm, ⟨7, _⟩ => ⟨S10, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3300000, .i32⟩
  | .hbm, ⟨24, _⟩ => ⟨S3300000, .i1⟩
  | .hbm, ⟨25, _⟩ => ⟨S_, .i32⟩
  | .hbm, ⟨26, _⟩ => ⟨S3300000, .i32⟩
  | .hbm, ⟨27, _⟩ => ⟨S3300000, .i32⟩
  | .hbm, ⟨28, _⟩ => ⟨S3300000, .i32⟩
  | .hbm, ⟨29, _⟩ => ⟨S3300000x1, .i32⟩
  | .hbm, ⟨30, _⟩ => ⟨S3300000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S3300000, .f32⟩
  | .hbm, ⟨41, _⟩ => ⟨S100000x64, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000x64, .f32⟩
  | .hbm, ⟨51, _⟩ => ⟨S3300000x1, .f32⟩
  | .hbm, ⟨52, _⟩ => ⟨S3300000x64, .f32⟩
  | .hbm, ⟨53, _⟩ => ⟨S3300000x64, .f32⟩
  | .hbm, ⟨54, _⟩ => ⟨S_, .f32⟩
  | .hbm, ⟨55, _⟩ => ⟨S100000x64, .f32⟩
  | .hbm, ⟨56, _⟩ => ⟨S3300000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S_, .i32⟩
  | .hbm, ⟨63, _⟩ => ⟨S3300000, .i32⟩
  | .hbm, ⟨64, _⟩ => ⟨S3300000, .i1⟩
  | .hbm, ⟨65, _⟩ => ⟨S_, .i32⟩
  | .hbm, ⟨66, _⟩ => ⟨S3300000, .i32⟩
  | .hbm, ⟨67, _⟩ => ⟨S3300000, .i32⟩
  | .hbm, ⟨68, _⟩ => ⟨S3300000, .i32⟩
  | .hbm, ⟨69, _⟩ => ⟨S3300000x1, .i32⟩
  | .hbm, ⟨70, _⟩ => ⟨S3300000x64, .f32⟩
  | .hbm, ⟨71, _⟩ => ⟨S3300000x1, .f32⟩
  | .hbm, ⟨72, _⟩ => ⟨S3300000x64, .f32⟩
  | .hbm, ⟨73, _⟩ => ⟨S3300000x64, .f32⟩
  | .hbm, ⟨74, _⟩ => ⟨S_, .f32⟩
  | .hbm, ⟨75, _⟩ => ⟨S100000x64, .f32⟩
  | .hbm, ⟨76, _⟩ => ⟨S3300000x1, .i32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S1x10, .f32⟩
  | .hbm, ⟨82, _⟩ => ⟨S64x64x10, .f32⟩
  | .hbm, ⟨83, _⟩ => ⟨S64x64x10, .f32⟩
  | .hbm, ⟨84, _⟩ => ⟨S1x10, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64x10, .f32⟩
  | .local _ .vmem, ⟨13, _⟩ => ⟨S1x10, .f32⟩
  | .local _ .vmem, ⟨14, _⟩ => ⟨S1x10, .f32⟩
  | .local _ .vmem, ⟨15, _⟩ => ⟨S64x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v12 : BitVec 1 := Scalar.cmpi .eq arg0 c9_i32
  let v13 : BitVec 32 := Scalar.extui v12
  let c0_i32_6 : BitVec 32 := 0#32
  let v14 : BitVec 1 := Scalar.cmpi .ne v13 c0_i32_6
  v14

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S10_S1x10 : S10.ShapeCasts S1x10
  shapeCasts_S4096x10_S64x64x10 : S4096x10.ShapeCasts S64x64x10
  transposes_S64x64x10_S64x64x10_1_0_2 : S64x64x10.Transposes [1, 0, 2] S64x64x10
  shapeCasts_S64x64_S64x64 : S64x64.ShapeCasts S64x64
  inb_S64x64x10_S64x64x10_0_0_0 : ∀ a, (![0, 0, 0] : Fin 3 → Nat) a + S64x64x10.size a ≤ S64x64x10.size a
  h_S64x64x10 : 0 < S64x64x10.numel
  shapeCasts_S64x64x10_S64x64x10 : S64x64x10.ShapeCasts S64x64x10
  slices_S64x64_o0_0_S64x1 : S64x64.Slices ![0, 0] S64x1
  slices_S64x64x10_o0_0_0_S1x64x10 : S64x64x10.Slices ![0, 0, 0] S1x64x10
  shapeCasts_S1x64x10_S64x10 : S1x64x10.ShapeCasts S64x10
  broadcasts_S64x1_S64x10 : S64x1.Broadcasts S64x10
  slices_S64x64_o0_1_S64x1 : S64x64.Slices ![0, 1] S64x1
  slices_S64x64x10_o1_0_0_S1x64x10 : S64x64x10.Slices ![1, 0, 0] S1x64x10
  slices_S64x64_o0_2_S64x1 : S64x64.Slices ![0, 2] S64x1
  slices_S64x64x10_o2_0_0_S1x64x10 : S64x64x10.Slices ![2, 0, 0] S1x64x10
  slices_S64x64_o0_3_S64x1 : S64x64.Slices ![0, 3] S64x1
  slices_S64x64x10_o3_0_0_S1x64x10 : S64x64x10.Slices ![3, 0, 0] S1x64x10
  slices_S64x64_o0_4_S64x1 : S64x64.Slices ![0, 4] S64x1
  slices_S64x64x10_o4_0_0_S1x64x10 : S64x64x10.Slices ![4, 0, 0] S1x64x10
  slices_S64x64_o0_5_S64x1 : S64x64.Slices ![0, 5] S64x1
  slices_S64x64x10_o5_0_0_S1x64x10 : S64x64x10.Slices ![5, 0, 0] S1x64x10
  slices_S64x64_o0_6_S64x1 : S64x64.Slices ![0, 6] S64x1
  slices_S64x64x10_o6_0_0_S1x64x10 : S64x64x10.Slices ![6, 0, 0] S1x64x10
  slices_S64x64_o0_7_S64x1 : S64x64.Slices ![0, 7] S64x1
  slices_S64x64x10_o7_0_0_S1x64x10 : S64x64x10.Slices ![7, 0, 0] S1x64x10
  slices_S64x64_o0_8_S64x1 : S64x64.Slices ![0, 8] S64x1
  slices_S64x64x10_o8_0_0_S1x64x10 : S64x64x10.Slices ![8, 0, 0] S1x64x10
  slices_S64x64_o0_9_S64x1 : S64x64.Slices ![0, 9] S64x1
  slices_S64x64x10_o9_0_0_S1x64x10 : S64x64x10.Slices ![9, 0, 0] S1x64x10
  slices_S64x64_o0_10_S64x1 : S64x64.Slices ![0, 10] S64x1
  slices_S64x64x10_o10_0_0_S1x64x10 : S64x64x10.Slices ![10, 0, 0] S1x64x10
  slices_S64x64_o0_11_S64x1 : S64x64.Slices ![0, 11] S64x1
  slices_S64x64x10_o11_0_0_S1x64x10 : S64x64x10.Slices ![11, 0, 0] S1x64x10
  slices_S64x64_o0_12_S64x1 : S64x64.Slices ![0, 12] S64x1
  slices_S64x64x10_o12_0_0_S1x64x10 : S64x64x10.Slices ![12, 0, 0] S1x64x10
  slices_S64x64_o0_13_S64x1 : S64x64.Slices ![0, 13] S64x1
  slices_S64x64x10_o13_0_0_S1x64x10 : S64x64x10.Slices ![13, 0, 0] S1x64x10
  slices_S64x64_o0_14_S64x1 : S64x64.Slices ![0, 14] S64x1
  slices_S64x64x10_o14_0_0_S1x64x10 : S64x64x10.Slices ![14, 0, 0] S1x64x10
  slices_S64x64_o0_15_S64x1 : S64x64.Slices ![0, 15] S64x1
  slices_S64x64x10_o15_0_0_S1x64x10 : S64x64x10.Slices ![15, 0, 0] S1x64x10
  slices_S64x64_o0_16_S64x1 : S64x64.Slices ![0, 16] S64x1
  slices_S64x64x10_o16_0_0_S1x64x10 : S64x64x10.Slices ![16, 0, 0] S1x64x10
  slices_S64x64_o0_17_S64x1 : S64x64.Slices ![0, 17] S64x1
  slices_S64x64x10_o17_0_0_S1x64x10 : S64x64x10.Slices ![17, 0, 0] S1x64x10
  slices_S64x64_o0_18_S64x1 : S64x64.Slices ![0, 18] S64x1
  slices_S64x64x10_o18_0_0_S1x64x10 : S64x64x10.Slices ![18, 0, 0] S1x64x10
  slices_S64x64_o0_19_S64x1 : S64x64.Slices ![0, 19] S64x1
  slices_S64x64x10_o19_0_0_S1x64x10 : S64x64x10.Slices ![19, 0, 0] S1x64x10
  slices_S64x64_o0_20_S64x1 : S64x64.Slices ![0, 20] S64x1
  slices_S64x64x10_o20_0_0_S1x64x10 : S64x64x10.Slices ![20, 0, 0] S1x64x10
  slices_S64x64_o0_21_S64x1 : S64x64.Slices ![0, 21] S64x1
  slices_S64x64x10_o21_0_0_S1x64x10 : S64x64x10.Slices ![21, 0, 0] S1x64x10
  slices_S64x64_o0_22_S64x1 : S64x64.Slices ![0, 22] S64x1
  slices_S64x64x10_o22_0_0_S1x64x10 : S64x64x10.Slices ![22, 0, 0] S1x64x10
  slices_S64x64_o0_23_S64x1 : S64x64.Slices ![0, 23] S64x1
  slices_S64x64x10_o23_0_0_S1x64x10 : S64x64x10.Slices ![23, 0, 0] S1x64x10
  slices_S64x64_o0_24_S64x1 : S64x64.Slices ![0, 24] S64x1
  slices_S64x64x10_o24_0_0_S1x64x10 : S64x64x10.Slices ![24, 0, 0] S1x64x10
  slices_S64x64_o0_25_S64x1 : S64x64.Slices ![0, 25] S64x1
  slices_S64x64x10_o25_0_0_S1x64x10 : S64x64x10.Slices ![25, 0, 0] S1x64x10
  slices_S64x64_o0_26_S64x1 : S64x64.Slices ![0, 26] S64x1
  slices_S64x64x10_o26_0_0_S1x64x10 : S64x64x10.Slices ![26, 0, 0] S1x64x10
  slices_S64x64_o0_27_S64x1 : S64x64.Slices ![0, 27] S64x1
  slices_S64x64x10_o27_0_0_S1x64x10 : S64x64x10.Slices ![27, 0, 0] S1x64x10
  slices_S64x64_o0_28_S64x1 : S64x64.Slices ![0, 28] S64x1
  slices_S64x64x10_o28_0_0_S1x64x10 : S64x64x10.Slices ![28, 0, 0] S1x64x10
  slices_S64x64_o0_29_S64x1 : S64x64.Slices ![0, 29] S64x1
  slices_S64x64x10_o29_0_0_S1x64x10 : S64x64x10.Slices ![29, 0, 0] S1x64x10
  slices_S64x64_o0_30_S64x1 : S64x64.Slices ![0, 30] S64x1
  slices_S64x64x10_o30_0_0_S1x64x10 : S64x64x10.Slices ![30, 0, 0] S1x64x10
  slices_S64x64_o0_31_S64x1 : S64x64.Slices ![0, 31] S64x1
  slices_S64x64x10_o31_0_0_S1x64x10 : S64x64x10.Slices ![31, 0, 0] S1x64x10
  slices_S64x64_o0_32_S64x1 : S64x64.Slices ![0, 32] S64x1
  slices_S64x64x10_o32_0_0_S1x64x10 : S64x64x10.Slices ![32, 0, 0] S1x64x10
  slices_S64x64_o0_33_S64x1 : S64x64.Slices ![0, 33] S64x1
  slices_S64x64x10_o33_0_0_S1x64x10 : S64x64x10.Slices ![33, 0, 0] S1x64x10
  slices_S64x64_o0_34_S64x1 : S64x64.Slices ![0, 34] S64x1
  slices_S64x64x10_o34_0_0_S1x64x10 : S64x64x10.Slices ![34, 0, 0] S1x64x10
  slices_S64x64_o0_35_S64x1 : S64x64.Slices ![0, 35] S64x1
  slices_S64x64x10_o35_0_0_S1x64x10 : S64x64x10.Slices ![35, 0, 0] S1x64x10
  slices_S64x64_o0_36_S64x1 : S64x64.Slices ![0, 36] S64x1
  slices_S64x64x10_o36_0_0_S1x64x10 : S64x64x10.Slices ![36, 0, 0] S1x64x10
  slices_S64x64_o0_37_S64x1 : S64x64.Slices ![0, 37] S64x1
  slices_S64x64x10_o37_0_0_S1x64x10 : S64x64x10.Slices ![37, 0, 0] S1x64x10
  slices_S64x64_o0_38_S64x1 : S64x64.Slices ![0, 38] S64x1
  slices_S64x64x10_o38_0_0_S1x64x10 : S64x64x10.Slices ![38, 0, 0] S1x64x10
  slices_S64x64_o0_39_S64x1 : S64x64.Slices ![0, 39] S64x1
  slices_S64x64x10_o39_0_0_S1x64x10 : S64x64x10.Slices ![39, 0, 0] S1x64x10
  slices_S64x64_o0_40_S64x1 : S64x64.Slices ![0, 40] S64x1
  slices_S64x64x10_o40_0_0_S1x64x10 : S64x64x10.Slices ![40, 0, 0] S1x64x10
  slices_S64x64_o0_41_S64x1 : S64x64.Slices ![0, 41] S64x1
  slices_S64x64x10_o41_0_0_S1x64x10 : S64x64x10.Slices ![41, 0, 0] S1x64x10
  slices_S64x64_o0_42_S64x1 : S64x64.Slices ![0, 42] S64x1
  slices_S64x64x10_o42_0_0_S1x64x10 : S64x64x10.Slices ![42, 0, 0] S1x64x10
  slices_S64x64_o0_43_S64x1 : S64x64.Slices ![0, 43] S64x1
  slices_S64x64x10_o43_0_0_S1x64x10 : S64x64x10.Slices ![43, 0, 0] S1x64x10
  slices_S64x64_o0_44_S64x1 : S64x64.Slices ![0, 44] S64x1
  slices_S64x64x10_o44_0_0_S1x64x10 : S64x64x10.Slices ![44, 0, 0] S1x64x10
  slices_S64x64_o0_45_S64x1 : S64x64.Slices ![0, 45] S64x1
  slices_S64x64x10_o45_0_0_S1x64x10 : S64x64x10.Slices ![45, 0, 0] S1x64x10
  slices_S64x64_o0_46_S64x1 : S64x64.Slices ![0, 46] S64x1
  slices_S64x64x10_o46_0_0_S1x64x10 : S64x64x10.Slices ![46, 0, 0] S1x64x10
  slices_S64x64_o0_47_S64x1 : S64x64.Slices ![0, 47] S64x1
  slices_S64x64x10_o47_0_0_S1x64x10 : S64x64x10.Slices ![47, 0, 0] S1x64x10
  slices_S64x64_o0_48_S64x1 : S64x64.Slices ![0, 48] S64x1
  slices_S64x64x10_o48_0_0_S1x64x10 : S64x64x10.Slices ![48, 0, 0] S1x64x10
  slices_S64x64_o0_49_S64x1 : S64x64.Slices ![0, 49] S64x1
  slices_S64x64x10_o49_0_0_S1x64x10 : S64x64x10.Slices ![49, 0, 0] S1x64x10
  slices_S64x64_o0_50_S64x1 : S64x64.Slices ![0, 50] S64x1
  slices_S64x64x10_o50_0_0_S1x64x10 : S64x64x10.Slices ![50, 0, 0] S1x64x10
  slices_S64x64_o0_51_S64x1 : S64x64.Slices ![0, 51] S64x1
  slices_S64x64x10_o51_0_0_S1x64x10 : S64x64x10.Slices ![51, 0, 0] S1x64x10
  slices_S64x64_o0_52_S64x1 : S64x64.Slices ![0, 52] S64x1
  slices_S64x64x10_o52_0_0_S1x64x10 : S64x64x10.Slices ![52, 0, 0] S1x64x10
  slices_S64x64_o0_53_S64x1 : S64x64.Slices ![0, 53] S64x1
  slices_S64x64x10_o53_0_0_S1x64x10 : S64x64x10.Slices ![53, 0, 0] S1x64x10
  slices_S64x64_o0_54_S64x1 : S64x64.Slices ![0, 54] S64x1
  slices_S64x64x10_o54_0_0_S1x64x10 : S64x64x10.Slices ![54, 0, 0] S1x64x10
  slices_S64x64_o0_55_S64x1 : S64x64.Slices ![0, 55] S64x1
  slices_S64x64x10_o55_0_0_S1x64x10 : S64x64x10.Slices ![55, 0, 0] S1x64x10
  slices_S64x64_o0_56_S64x1 : S64x64.Slices ![0, 56] S64x1
  slices_S64x64x10_o56_0_0_S1x64x10 : S64x64x10.Slices ![56, 0, 0] S1x64x10
  slices_S64x64_o0_57_S64x1 : S64x64.Slices ![0, 57] S64x1
  slices_S64x64x10_o57_0_0_S1x64x10 : S64x64x10.Slices ![57, 0, 0] S1x64x10
  slices_S64x64_o0_58_S64x1 : S64x64.Slices ![0, 58] S64x1
  slices_S64x64x10_o58_0_0_S1x64x10 : S64x64x10.Slices ![58, 0, 0] S1x64x10
  slices_S64x64_o0_59_S64x1 : S64x64.Slices ![0, 59] S64x1
  slices_S64x64x10_o59_0_0_S1x64x10 : S64x64x10.Slices ![59, 0, 0] S1x64x10
  slices_S64x64_o0_60_S64x1 : S64x64.Slices ![0, 60] S64x1
  slices_S64x64x10_o60_0_0_S1x64x10 : S64x64x10.Slices ![60, 0, 0] S1x64x10
  slices_S64x64_o0_61_S64x1 : S64x64.Slices ![0, 61] S64x1
  slices_S64x64x10_o61_0_0_S1x64x10 : S64x64x10.Slices ![61, 0, 0] S1x64x10
  slices_S64x64_o0_62_S64x1 : S64x64.Slices ![0, 62] S64x1
  slices_S64x64x10_o62_0_0_S1x64x10 : S64x64x10.Slices ![62, 0, 0] S1x64x10
  slices_S64x64_o0_63_S64x1 : S64x64.Slices ![0, 63] S64x1
  slices_S64x64x10_o63_0_0_S1x64x10 : S64x64x10.Slices ![63, 0, 0] S1x64x10
  reduces_S64x10_S10 : S64x10.Reduces [0] S10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  reduces_S1x10_S1 : S1x10.Reduces [1] S1
  shapeCasts_S1_S1x1 : S1.ShapeCasts S1x1
  broadcasts_S1x1_S1x10 : S1x1.Broadcasts S1x10
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x64_S10000x64_S64x64_0_0_1_1_n_n_wf : DotDims.WF S10000x64 S10000x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64x10.size a ≤ S64x64x10.size a
  hwx2_1 : ∀ i : grid2.Coords, EltTy.bits .f32 = 32 ∨ (Rect.block (s := S64x64x10) S64x64x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v60) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S64x64x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x10.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S4096x10 : Shape := ⟨2, ![4096, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S64x100000 : Shape := ⟨2, ![64, 100000]⟩
abbrev S1x4096 : Shape := ⟨2, ![1, 4096]⟩
abbrev S1x10 : Shape := ⟨2, ![1, 10]⟩
abbrev S1 : Shape := ⟨1, ![1]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S4096x10, .f32⟩
  | .hbm, ⟨7, _⟩ => ⟨S10, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3300000, .i32⟩
  | .hbm, ⟨24, _⟩ => ⟨S3300000, .i1⟩
  | .hbm, ⟨25, _⟩ => ⟨S_, .i32⟩
  | .hbm, ⟨26, _⟩ => ⟨S3300000, .i32⟩
  | .hbm, ⟨27, _⟩ => ⟨S3300000, .i32⟩
  | .hbm, ⟨28, _⟩ => ⟨S3300000, .i32⟩
  | .hbm, ⟨29, _⟩ => ⟨S3300000x1, .i32⟩
  | .hbm, ⟨30, _⟩ => ⟨S3300000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S3300000, .f32⟩
  | .hbm, ⟨41, _⟩ => ⟨S100000x64, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000x64, .f32⟩
  | .hbm, ⟨51, _⟩ => ⟨S3300000x1, .f32⟩
  | .hbm, ⟨52, _⟩ => ⟨S3300000x64, .f32⟩
  | .hbm, ⟨53, _⟩ => ⟨S3300000x64, .f32⟩
  | .hbm, ⟨54, _⟩ => ⟨S_, .f32⟩
  | .hbm, ⟨55, _⟩ => ⟨S100000x64, .f32⟩
  | .hbm, ⟨56, _⟩ => ⟨S3300000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S_, .i32⟩
  | .hbm, ⟨63, _⟩ => ⟨S3300000, .i32⟩
  | .hbm, ⟨64, _⟩ => ⟨S3300000, .i1⟩
  | .hbm, ⟨65, _⟩ => ⟨S_, .i32⟩
  | .hbm, ⟨66, _⟩ => ⟨S3300000, .i32⟩
  | .hbm, ⟨67, _⟩ => ⟨S3300000, .i32⟩
  | .hbm, ⟨68, _⟩ => ⟨S3300000, .i32⟩
  | .hbm, ⟨69, _⟩ => ⟨S3300000x1, .i32⟩
  | .hbm, ⟨70, _⟩ => ⟨S3300000x64, .f32⟩
  | .hbm, ⟨71, _⟩ => ⟨S3300000x1, .f32⟩
  | .hbm, ⟨72, _⟩ => ⟨S3300000x64, .f32⟩
  | .hbm, ⟨73, _⟩ => ⟨S3300000x64, .f32⟩
  | .hbm, ⟨74, _⟩ => ⟨S_, .f32⟩
  | .hbm, ⟨75, _⟩ => ⟨S100000x64, .f32⟩
  | .hbm, ⟨76, _⟩ => ⟨S3300000x1, .i32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S64x100000, .f32⟩
  | .hbm, ⟨82, _⟩ => ⟨S64x64, .f32⟩
  | .hbm, ⟨83, _⟩ => ⟨S1x4096, .f32⟩
  | .hbm, ⟨84, _⟩ => ⟨S1x10, .f32⟩
  | .hbm, ⟨85, _⟩ => ⟨S1x10, .f32⟩
  | .hbm, ⟨86, _⟩ => ⟨S1x10, .f32⟩
  | .hbm, ⟨87, _⟩ => ⟨S_, .f32⟩
  | .hbm, ⟨88, _⟩ => ⟨S1, .f32⟩
  | .hbm, ⟨89, _⟩ => ⟨S_, .f32⟩
  | .hbm, ⟨90, _⟩ => ⟨S1, .f32⟩
  | .hbm, ⟨91, _⟩ => ⟨S1, .f32⟩
  | .hbm, ⟨92, _⟩ => ⟨S1x1, .f32⟩
  | .hbm, ⟨93, _⟩ => ⟨S1x10, .f32⟩
  | .hbm, ⟨94, _⟩ => ⟨S1x10, .f32⟩
  | .hbm, ⟨95, _⟩ => ⟨S1x10, .f32⟩
  | .hbm, ⟨96, _⟩ => ⟨S_, .f32⟩
  | .hbm, ⟨97, _⟩ => ⟨S1, .f32⟩
  | .hbm, ⟨98, _⟩ => ⟨S1x1, .f32⟩
  | .hbm, ⟨99, _⟩ => ⟨S1x10, .f32⟩
  | .hbm, ⟨100, _⟩ => ⟨S1x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_10 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_12 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S100000x64_S64x100000_1_0 : S100000x64.Transposes [1, 0] S64x100000
  shapeCasts_S64x64_S1x4096 : S64x64.ShapeCasts S1x4096
  bcast_S10_S1x10_1 : S10.BroadcastsInDim S1x10 (![1] : Fin 1 → Fin S1x10.rank)
  reducesTo_S1x10_S1_d1 : S1x10.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x10_0_1 : S1x1.BroadcastsInDim S1x10 (![0, 1] : Fin 2 → Fin S1x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S64x100000_S100000x64_S64x64_1_0_0_1_n_n_wf : DotDims.WF S64x100000 S100000x64 S64x64 [1] [0] [0] [1] [] []
  dot_S1x4096_S4096x10_S1x10_1_0_0_1_n_n_wf : DotDims.WF S1x4096 S4096x10 S1x10 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S64x100000_S100000x64_S64x64_1_0_0_1_n_n : DotDims S64x100000 S100000x64 S64x64 where
  lhsContracting := [1]
  rhsContracting := [0]
  lhsNonContracting := [0]
  rhsNonContracting := [1]
  lhsBatch := []
  rhsBatch := []
  wf := dot_S64x100000_S100000x64_S64x64_1_0_0_1_n_n_wf
def dot_S1x4096_S4096x10_S1x10_1_0_0_1_n_n : DotDims S1x4096 S4096x10 S1x10 where
  lhsContracting := [1]
  rhsContracting := [0]
  lhsNonContracting := [0]
  rhsNonContracting := [1]
  lhsBatch := []
  rhsBatch := []
  wf := dot_S1x4096_S4096x10_S1x10_1_0_0_1_n_n_wf

class Facts : Prop extends Facts₀ where

variable [Facts]
-- ==== Proof.K.Reg0.lean ====
/-
  Region 0 of the program: one row block of the matrix product per grid point. What the body leaves in the
  output window's buffer is the product payload of the two input blocks; the proof data name it at every point,
  and the body obligation is the kernel's run on whole staging buffers.
-/
import proofs.«426799_j87754771792351_4_alg».proof.Proof.Gen.Kernel.Launch
import proofs.«426799_j87754771792351_4_alg».proof.Proof.Gen.Kernel.Skeleton
import proofs.«426799_j87754771792351_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x64 := Rect.unit (s := S10000x64) ![0, 0] S10000x64.size inb_S10000x64_S10000x64_0_0

/-- The output window's buffer after the body: its one store, the product of the two loaded blocks. -/
def out0_2 (x0 : Vec F S10000x128 .f32) (x1 : Vec F S128x64 .f32) : Vec F S10000x64 .f32 :=
  View.canon [⟨r0_2, k0_pay1 (View.ld x0 r0_0) (View.ld x1 r0_1)⟩]

theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in
/-- The body on whole staging buffers: the inputs are handed back as they were, the output holds the product. -/
theorem sound_kernel0 (c : Dev nD) (E : Set ℕ) (i : grid0.Coords) (arg1 : Memref sig .tc .vmem S10000x128 .f32) (harg1 : arg1.IsWhole) (arg2 : Memref sig .tc .vmem S128x64 .f32) (harg2 : arg2.IsWhole)
    (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline: the arrays as the region finds them; after the body each input's buffer at its
    block and the output's at the product of the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the program: one row block of the matrix product per grid point. What the body leaves in the
  output window's buffer is the product payload of the two input blocks; the proof data name it at every point,
  and the body obligation is the kernel's run on whole staging buffers.
-/
import proofs.«426799_j87754771792351_4_alg».proof.Proof.Gen.Kernel.Launch
import proofs.«426799_j87754771792351_4_alg».proof.Proof.Gen.Kernel.Skeleton
import proofs.«426799_j87754771792351_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x64 := Rect.unit (s := S10000x64) ![0, 0] S10000x64.size inb_S10000x64_S10000x64_0_0
abbrev r1_1 : Rect S64x64 := Rect.unit (s := S64x64) ![0, 0] S64x64.size inb_S64x64_S64x64_0_0
abbrev r1_2 : Rect S10000x64 := Rect.unit (s := S10000x64) ![0, 0] S10000x64.size inb_S10000x64_S10000x64_0_0

/-- The output window's buffer after the body: its one store, the product of the two loaded blocks. -/
def out1_2 (x0 : Vec F S10000x64 .f32) (x1 : Vec F S64x64 .f32) : Vec F S10000x64 .f32 :=
  View.canon [⟨r1_2, k1_pay1 (View.ld x0 r1_0) (View.ld x1 r1_1)⟩]

theorem cover1_2 (p0 : Vec F S10000x64 .f32) (y : S10000x64.Idx) :
    ∃ pc ∈ ([⟨r1_2, p0⟩] : List (View.Piece (Elt F) S10000x64 .f32)), y ∈ pc.1.set :=
  View.cover_of_tiled [⟨r1_2, p0⟩] S10000x64.size (by rfl) y

set_option maxHeartbeats 1000000 in
/-- The body on whole staging buffers: the inputs are handed back as they were, the output holds the product. -/
theorem sound_kernel1 (c : Dev nD) (E : Set ℕ) (i : grid1.Coords) (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this pipeline: the arrays as the region finds them; after the body each input's buffer at its
    block and the output's at the product of the input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2Runs.lean ====
/-
  Region 2 of the program, the readout: its body's run in each of the three cases its two conditionals meet on the
  grid. The first point clears the carried scratch and adds the first block's Gram matrix; the middle points add
  theirs; the last point adds its own and then computes the output row from the scratch. Each run hands the inputs
  back as they were and leaves the scratch (and, at the last point, the output buffer) with the stores it made.
-/
import proofs.«426799_j87754771792351_4_alg».proof.Proof.Gen.Kernel.Launch
import proofs.«426799_j87754771792351_4_alg».proof.Proof.Gen.Kernel.Skeleton
import proofs.«426799_j87754771792351_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions, decided over the grid -/

/-- The first conditional: the point is the grid's first. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- The second conditional: the point is the grid's last. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
theorem liveAt2_3_C : ∀ t : Fin cfg2.N, ¬cond2_0 (grid2.coords t) → cond2_1 (grid2.coords t) → cfg2.idle 3 (grid2.coords t) = false := by decide +kernel

/-! ## The memrefs the body is called with -/

abbrev VO2_3 : View sig .tc .vmem S1x10 .f32 := (Memref.whole cc2_stg3_0 : Memref sig .tc .vmem S1x10 .f32).view
abbrev ms2_0 (t : Fin cfg2.N) : Memref sig .tc .vmem S10000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x64x10 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x10 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x10 .f32 := win2_3.stage (cfg2.slots t 3)
abbrev hs2_3 (t : Fin cfg2.N) : (ms2_3 t).IsWhole := hstage2_3 ((cfg2.slots t 3).cast nbuf2_3)
/-- The scratch the kernel carries between points. -/
abbrev scM2_0 : Memref sig .tc .vmem S64x64 .f32 := Memref.whole cc2_scratch0
abbrev VS2_0 : View sig .tc .vmem S64x64 .f32 := scM2_0.view

/-! ## The runs -/

set_option maxHeartbeats 4000000 in
/-- The first point: the scratch is cleared, the block's Gram matrix added to it; the output buffer is untouched. -/
noncomputable def kernelRun2_A (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : cond2_0 i) (hc1 : ¬cond2_1 i)
    (x0 : Vec F S10000x64 .f32) (x1 : Vec F S64x64x10 .f32) (x2 : Vec F S1x10 .f32) :
    Σ' (L3 : List (View.Piece (Elt F) S1x10 .f32)), { LS0 : List (View.Piece (Elt F) S64x64 .f32) //
      ∀ (xi3 : Vec F S1x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2__readout_kernel i arg1 harg1 arg2 harg2 arg3 harg3 arg4 harg4 arg5 harg5) K } := by
  refine ⟨[], ?_, fun xi3 E K => ?run⟩
  case run =>
    simp only [cc2__readout_kernel_eq_skeleton]; unfold cc2__readout_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 4000000 in
/-- A middle point: the block's Gram matrix is added to what the scratch held; the output buffer is untouched. -/
noncomputable def kernelRun2_B (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : ¬cond2_1 i)
    (x0 : Vec F S10000x64 .f32) (x1 : Vec F S64x64x10 .f32) (x2 : Vec F S1x10 .f32) (xs0 : Vec F S64x64 .f32) :
    Σ' (L3 : List (View.Piece (Elt F) S1x10 .f32)), { LS0 : List (View.Piece (Elt F) S64x64 .f32) //
      ∀ (xi3 : Vec F S1x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2__readout_kernel i arg1 harg1 arg2 harg2 arg3 harg3 arg4 harg4 arg5 harg5) K } := by
  refine ⟨[], ?_, fun xi3 E K => ?run⟩
  case run =>
    simp only [cc2__readout_kernel_eq_skeleton]; unfold cc2__readout_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 8000000 in
/-- The last point: the block's Gram matrix is added to the scratch, and the output row computed from the sum. -/
noncomputable def kernelRun2_C (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : cond2_1 i)
    (x0 : Vec F S10000x64 .f32) (x1 : Vec F S64x64x10 .f32) (x2 : Vec F S1x10 .f32) (xs0 : Vec F S64x64 .f32) :
    Σ' (L3 : List (View.Piece (Elt F) S1x10 .f32)), { LS0 : List (View.Piece (Elt F) S64x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc2__readout_kernel i arg1 harg1 arg2 harg2 arg3 harg3 arg4 harg4 arg5 harg5) K } := by
  refine ⟨?_, ?_, fun E K => ?run⟩
  case run =>
    simp only [cc2__readout_kernel_eq_skeleton]; unfold cc2__readout_kernel_skel
    simp only [k2_part7_eq_skeleton, k2_part1_eq_skeleton, k2_part2_eq_skeleton, k2_part3_eq_skeleton, k2_part4_eq_skeleton, k2_part5_eq_skeleton, k2_part6_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.K.Reg2.lean ====
/-
  Region 2 of the program, the readout, as proof data for the pipeline: what the carried scratch and the output
  buffer hold after each grid point (by recursion on the point, over the three cases' runs), the region invariant
  that carries the scratch's contents from one point to the next, and the body obligation at every point.
-/
import proofs.«426799_j87754771792351_4_alg».proof.Proof.K.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The scoped buffers that are no staging buffer of this region, with the carried scratch at `P`: the other regions'
    staging buffers at anything. -/
def SR (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ P)

/-- The class invariant, with the scratch as a memref owned at some contents. -/
theorem PhiA2_eq (c : Dev nD) :
    (Pipeline.ΦA spec2 c : sProp 𝕄)
      = iprop(SR c iprop(∃ d, owns (c : Thread nD τ) scM2_0 fullShare d) ∗ (∃ r, prngReg c r)) := by
  unfold Pipeline.ΦA SR; rw [scopedRest2_eq]; simp only [scM2_0, owns_whole]; try rfl

/-- What case A leaves in the output buffer: nothing is stored; a placeholder nothing consults. -/
def out2_A_3 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : cond2_0 i) (hc1 : ¬cond2_1 i)
    (x0 : Vec F S10000x64 .f32) (x1 : Vec F S64x64x10 .f32) (x2 : Vec F S1x10 .f32) : Vec F S1x10 .f32 :=
  VO2_3.read (Elt F) (VO2_3.writes (Elt F) VO2_3.junk (kernelRun2_A c i arg1 harg1 arg2 harg2 arg3 harg3 arg4 harg4 arg5 harg5 hc0 hc1 x0 x1 x2).1)

/-- Case A's stores into the carried scratch cover it. -/
theorem scover2_A_0 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : cond2_0 i) (hc1 : ¬cond2_1 i)
    (x0 : Vec F S10000x64 .f32) (x1 : Vec F S64x64x10 .f32) (x2 : Vec F S1x10 .f32) (y : S64x64.Idx) :
    ∃ pc ∈ (kernelRun2_A c i arg1 harg1 arg2 harg2 arg3 harg3 arg4 harg4 arg5 harg5 hc0 hc1 x0 x1 x2).2.1, y ∈ pc.1.set :=
  View.cover_of_tiledL (kernelRun2_A c i arg1 harg1 arg2 harg2 arg3 harg3 arg4 harg4 arg5 harg5 hc0 hc1 x0 x1 x2).2.1 S64x64.size (by sl_kernel_rfl) y

/-- What case A leaves in the carried scratch. -/
def sout2_A_0 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : cond2_0 i) (hc1 : ¬cond2_1 i)
    (x0 : Vec F S10000x64 .f32) (x1 : Vec F S64x64x10 .f32) (x2 : Vec F S1x10 .f32) : Vec F S64x64 .f32 :=
  VS2_0.read (Elt F) (VS2_0.writes (Elt F) VS2_0.junk (kernelRun2_A c i arg1 harg1 arg2 harg2 arg3 harg3 arg4 harg4 arg5 harg5 hc0 hc1 x0 x1 x2).2.1)

/-- What case B leaves in the output buffer: nothing is stored; a placeholder nothing consults. -/
def out2_B_3 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : ¬cond2_1 i)
    (x0 : Vec F S10000x64 .f32) (x1 : Vec F S64x64x10 .f32) (x2 : Vec F S1x10 .f32) (xs0 : Vec F S64x64 .f32) : Vec F S1x10 .f32 :=
  VO2_3.read (Elt F) (VO2_3.writes (Elt F) VO2_3.junk (kernelRun2_B c i arg1 harg1 arg2 harg2 arg3 harg3 arg4 harg4 arg5 harg5 hc0 hc1 x0 x1 x2 xs0).1)

/-- Case B's stores into the carried scratch cover it. -/
theorem scover2_B_0 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : ¬cond2_1 i)
    (x0 : Vec F S10000x64 .f32) (x1 : Vec F S64x64x10 .f32) (x2 : Vec F S1x10 .f32) (xs0 : Vec F S64x64 .f32) (y : S64x64.Idx) :
    ∃ pc ∈ (kernelRun2_B c i arg1 harg1 arg2 harg2 arg3 harg3 arg4 harg4 arg5 harg5 hc0 hc1 x0 x1 x2 xs0).2.1, y ∈ pc.1.set :=
  View.cover_of_tiledL (kernelRun2_B c i arg1 harg1 arg2 harg2 arg3 harg3 arg4 harg4 arg5 harg5 hc0 hc1 x0 x1 x2 xs0).2.1 S64x64.size (by sl_kernel_rfl) y

/-- What case B leaves in the carried scratch. -/
def sout2_B_0 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : ¬cond2_1 i)
    (x0 : Vec F S10000x64 .f32) (x1 : Vec F S64x64x10 .f32) (x2 : Vec F S1x10 .f32) (xs0 : Vec F S64x64 .f32) : Vec F S64x64 .f32 :=
  VS2_0.read (Elt F) (VS2_0.writes (Elt F) VS2_0.junk (kernelRun2_B c i arg1 harg1 arg2 harg2 arg3 harg3 arg4 harg4 arg5 harg5 hc0 hc1 x0 x1 x2 xs0).2.1)

/-- What case C leaves in the output buffer: its pieces read back. -/
def out2_C_3 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : cond2_1 i)
    (x0 : Vec F S10000x64 .f32) (x1 : Vec F S64x64x10 .f32) (x2 : Vec F S1x10 .f32) (xs0 : Vec F S64x64 .f32) : Vec F S1x10 .f32 :=
  VO2_3.read (Elt F) (VO2_3.writes (Elt F) VO2_3.junk (kernelRun2_C c i arg1 harg1 arg2 harg2 arg3 harg3 arg4 harg4 arg5 harg5 hc0 hc1 x0 x1 x2 xs0).1)

theorem cover2_C_3 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : cond2_1 i)
    (x0 : Vec F S10000x64 .f32) (x1 : Vec F S64x64x10 .f32) (x2 : Vec F S1x10 .f32) (xs0 : Vec F S64x64 .f32) (y : S1x10.Idx) :
    ∃ pc ∈ (kernelRun2_C c i arg1 harg1 arg2 harg2 arg3 harg3 arg4 harg4 arg5 harg5 hc0 hc1 x0 x1 x2 xs0).1, y ∈ pc.1.set :=
  View.cover_of_tiledL (kernelRun2_C c i arg1 harg1 arg2 harg2 arg3 harg3 arg4 harg4 arg5 harg5 hc0 hc1 x0 x1 x2 xs0).1 S1x10.size (by sl_kernel_rfl) y

/-- Case C's stores into the carried scratch cover it. -/
theorem scover2_C_0 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : cond2_1 i)
    (x0 : Vec F S10000x64 .f32) (x1 : Vec F S64x64x10 .f32) (x2 : Vec F S1x10 .f32) (xs0 : Vec F S64x64 .f32) (y : S64x64.Idx) :
    ∃ pc ∈ (kernelRun2_C c i arg1 harg1 arg2 harg2 arg3 harg3 arg4 harg4 arg5 harg5 hc0 hc1 x0 x1 x2 xs0).2.1, y ∈ pc.1.set :=
  View.cover_of_tiledL (kernelRun2_C c i arg1 harg1 arg2 harg2 arg3 harg3 arg4 harg4 arg5 harg5 hc0 hc1 x0 x1 x2 xs0).2.1 S64x64.size (by sl_kernel_rfl) y

/-- What case C leaves in the carried scratch. -/
def sout2_C_0 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : cond2_1 i)
    (x0 : Vec F S10000x64 .f32) (x1 : Vec F S64x64x10 .f32) (x2 : Vec F S1x10 .f32) (xs0 : Vec F S64x64 .f32) : Vec F S64x64 .f32 :=
  VS2_0.read (Elt F) (VS2_0.writes (Elt F) VS2_0.junk (kernelRun2_C c i arg1 harg1 arg2 harg2 arg3 harg3 arg4 harg4 arg5 harg5 hc0 hc1 x0 x1 x2 xs0).2.1)

/-! ## What the output buffer and the scratch hold after each point -/

/-- After the body at position `n`: the output buffer's contents and the scratch's, the case the point is in run at the
    point's memrefs and blocks, the scratch a later case reads at what the point before left. -/
def outsAt2 (c : Dev nD) : (n : ℕ) → n < cfg2.N → Vec F S1x10 .f32 × Vec F S64x64 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 10 = 0 then
      if h1 : (n + 1) % 10 = 9 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 10 = 9 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 10 = 0) (h1 : ¬t.val % 10 = 9) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 10 = 0) (h1 : ¬t.val % 10 = 9) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 10 = 0) (h1 : t.val % 10 = 9) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the scoped rest with the
    carried scratch at what the point before left in it, and the generator register at some state. -/
def PhiS2 (c : Dev nD) : (n : ℕ) → n ≤ cfg2.N → sProp 𝕄
  | 0, _ => Pipeline.ΦA spec2 c
  | n + 1, hn => iprop(SR c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(SR c (owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(SR c (owns (c : Thread nD τ) scM2_0 fullShare ((outsAt2 V c (n - 1) (by omega)).2)) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 8000000 in
/-- The body at any point: the closed forms say which case the point is in; the invariant hands the body the carried
    scratch at what the point before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
        unfold Dat.leavesExact; rw [liveAt2_0 t], after2_0]
  rw [show (dat2 V c).leavesExact 1 t = owns (c : Thread nD τ) (ms2_1 t) fullShare ((dat2 V c).after 1 t) from by
        unfold Dat.leavesExact; rw [liveAt2_1 t], after2_1]
  rw [show (dat2 V c).leavesExact 2 t = owns (c : Thread nD τ) (ms2_2 t) fullShare ((dat2 V c).after 2 t) from by
        unfold Dat.leavesExact; rw [liveAt2_2 t], after2_2]
  by_cases h0 : t.val % 10 = 0
  · by_cases h1 : t.val % 10 = 9
    · exfalso; omega
    · rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        unfold SR
        iintro ⟨⟨⟨Hr0, Hr1, Hr2, Hr3, Hr4, Hr5, Hr6, Hr7, Hr8, Hr9, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hr0 Hr1 Hr2 Hr3 Hr4 Hr5 Hr6 Hr7 Hr8 Hr9 HS0 Hg]
        · isplitl [Hr0 Hr1 Hr2 Hr3 Hr4 Hr5 Hr6 Hr7 Hr8 Hr9 HS0]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · exfalso; omega
  · by_cases h1 : t.val % 10 = 9
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      have hz : t.val ≠ 0 := by omega
      rw [PhiS2_castSucc V c t, PhiS2_pos V c _ _ hz]
      unfold SR
      iintro ⟨⟨⟨Hr0, Hr1, Hr2, Hr3, Hr4, Hr5, Hr6, Hr7, Hr8, Hr9, HS0⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hr0 Hr1 Hr2 Hr3 Hr4 Hr5 Hr6 Hr7 Hr8 Hr9 HS0 Hg]
      · isplitl [Hr0 Hr1 Hr2 Hr3 Hr4 Hr5 Hr6 Hr7 Hr8 Hr9 HS0]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          unfold owns; iexists _; isplitr
          swap; · iexact HS0
          ipureintro; exact View.read_writes_of_cover _ _ _ _ _ (scover2_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      have hz : t.val ≠ 0 := by omega
      rw [PhiS2_castSucc V c t, PhiS2_pos V c _ _ hz]
      unfold SR
      iintro ⟨⟨⟨Hr0, Hr1, Hr2, Hr3, Hr4, Hr5, Hr6, Hr7, Hr8, Hr9, HS0⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hr0 Hr1 Hr2 Hr3 Hr4 Hr5 Hr6 Hr7 Hr8 Hr9 HS0 Hg]
      · isplitl [Hr0 Hr1 Hr2 Hr3 Hr4 Hr5 Hr6 Hr7 Hr8 Hr9 HS0]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          unfold owns; iexists _; isplitr
          swap; · iexact HS0
          ipureintro; exact View.read_writes_of_cover _ _ _ _ _ (scover2_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's named contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 10 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  unfold SR
  iintro ⟨⟨Hr0, Hr1, Hr2, Hr3, Hr4, Hr5, Hr6, Hr7, Hr8, Hr9, HS0⟩, Hg⟩
  isplitl [Hr0 Hr1 Hr2 Hr3 Hr4 Hr5 Hr6 Hr7 Hr8 Hr9 HS0]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    iexists _; iexact HS0
  iexact Hg

end Cert.Kernel.Hand

end
-- ==== Proof.K.Run.lean ====
/-
  The run of @main: three host stretches and three kernel regions in turn. The buffer contents at each boundary are
  a fold from the launch memory (a host stretch applies its operations; a region leaves its arrays at what its
  write-backs produce and every other buffer as entered). Every weakly fair execution terminates, and the final
  memory holds every unscoped buffer at the last boundary's contents.
-/
import proofs.«426799_j87754771792351_4_alg».proof.Proof.K.Reg0
import proofs.«426799_j87754771792351_4_alg».proof.Proof.K.Reg1
import proofs.«426799_j87754771792351_4_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch before region 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at what the pipeline leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the pipeline leaves. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it. Its arrays are split out of the unscoped buffers and put back at what the pipeline leaves. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    iintro ⟨Hp, -, Hr⟩
    iapply (hin2 (V5 m ρ) c)
    unfold Pipeline.ΦA
    isplitl [Hr]; · iexact Hr
    iexact Hp
  hout c := by
    rw [Pipeline.ownSems0_none, show (pdats m ρ 2 c).Φ (Fin.last _) = (dat2 (V5 m ρ) c).Φ (Fin.last cfg2.N) from rfl]
    iintro HF
    ihave H := (hout2 (V5 m ρ) c) $$ HF
    unfold Pipeline.ΦA
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

theorem main_run (c : Dev nD) : main (F := F) c = Pipeline.Seg.run (segs m ρ) := (main_chain c).trans (by chain_rfl)

set_option backward.isDefEq.respectTransparency.types false in
/-- Every weakly fair execution of @main terminates, nothing faulting, and every final memory holds every unscoped
    buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.K.Args.lean ====
/-
  The argument arrays at the last boundary of the run are the launch contents: a host stretch writes only its own
  results, and a region changes only its output array.
-/
import proofs.«426799_j87754771792351_4_alg».proof.Proof.K.Run
import proofs.«426799_j87754771792351_4_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` reaches the last boundary as launched: no host stretch writes it and no region changes it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (show main_arg0 ∉ hostOps2_W by decide)
    _ = W3 m ρ c (Proc.devRef .tc main_arg0) := W4_of_ne m ρ c main_arg0 (by decide)
    _ = W2 m ρ c (Proc.devRef .tc main_arg0) := StableHlo.after_of_writes_sub hostOps1 _ hostOps1_writes (show main_arg0 ∉ hostOps1_W by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (show main_arg0 ∉ hostOps0_W by decide)
    _ = m ((c : Thread nD τ).loc main_arg0) := rfl

/-- `main_arg1` reaches the last boundary as launched: no host stretch writes it and no region changes it. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (show main_arg1 ∉ hostOps2_W by decide)
    _ = W3 m ρ c (Proc.devRef .tc main_arg1) := W4_of_ne m ρ c main_arg1 (by decide)
    _ = W2 m ρ c (Proc.devRef .tc main_arg1) := StableHlo.after_of_writes_sub hostOps1 _ hostOps1_writes (show main_arg1 ∉ hostOps1_W by decide)
    _ = W1 m ρ c (Proc.devRef .tc main_arg1) := W2_of_ne m ρ c main_arg1 (by decide)
    _ = W0 m ρ c (Proc.devRef .tc main_arg1) := StableHlo.after_of_writes_sub hostOps0 _ hostOps0_writes (show main_arg1 ∉ hostOps0_W by decide)
    _ = m ((c : Thread nD τ).loc main_arg1) := rfl

/-- `main_arg2` reaches the last boundary as launched: no host stretch writes it and no region changes it. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (show main_arg2 ∉ hostOps2_W by decide)
    _ = W3 m ρ c (Proc.devRef .tc main_arg2) := W4_of_ne m ρ c main_arg2 (by decide)
    _ = W2 m ρ c (Proc.devRef .tc main_arg2) := StableHlo.after_of_writes_sub hostOps1 _ hostOps1_writes (show main_arg2 ∉ hostOps1_W by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (show main_arg2 ∉ hostOps0_W by decide)
    _ = m ((c : Thread nD τ).loc main_arg2) := rfl

/-- `main_arg3` reaches the last boundary as launched: no host stretch writes it and no region changes it. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (show main_arg3 ∉ hostOps2_W by decide)
    _ = W3 m ρ c (Proc.devRef .tc main_arg3) := W4_of_ne m ρ c main_arg3 (by decide)
    _ = W2 m ρ c (Proc.devRef .tc main_arg3) := StableHlo.after_of_writes_sub hostOps1 _ hostOps1_writes (show main_arg3 ∉ hostOps1_W by decide)
    _ = W1 m ρ c (Proc.devRef .tc main_arg3) := W2_of_ne m ρ c main_arg3 (by decide)
    _ = W0 m ρ c (Proc.devRef .tc main_arg3) := StableHlo.after_of_writes_sub hostOps0 _ hostOps0_writes (show main_arg3 ∉ hostOps0_W by decide)
    _ = m ((c : Thread nD τ).loc main_arg3) := rfl

/-- `main_arg4` reaches the last boundary as launched: no host stretch writes it and no region changes it. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (show main_arg4 ∉ hostOps2_W by decide)
    _ = W3 m ρ c (Proc.devRef .tc main_arg4) := (W4_arr m ρ c 1).trans (((dat1 (V3 m ρ) c).arrAt_in 1 rfl _).trans (A_eq1 (V3 m ρ) c 1))
    _ = W2 m ρ c (Proc.devRef .tc main_arg4) := StableHlo.after_of_writes_sub hostOps1 _ hostOps1_writes (show main_arg4 ∉ hostOps1_W by decide)
    _ = W1 m ρ c (Proc.devRef .tc main_arg4) := W2_of_ne m ρ c main_arg4 (by decide)
    _ = W0 m ρ c (Proc.devRef .tc main_arg4) := StableHlo.after_of_writes_sub hostOps0 _ hostOps0_writes (show main_arg4 ∉ hostOps0_W by decide)
    _ = m ((c : Thread nD τ).loc main_arg4) := rfl

/-- `main_arg5` reaches the last boundary as launched: no host stretch writes it and no region changes it. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (show main_arg5 ∉ hostOps2_W by decide)
    _ = W3 m ρ c (Proc.devRef .tc main_arg5) := W4_of_ne m ρ c main_arg5 (by decide)
    _ = W2 m ρ c (Proc.devRef .tc main_arg5) := StableHlo.after_of_writes_sub hostOps1 _ hostOps1_writes (show main_arg5 ∉ hostOps1_W by decide)
    _ = W1 m ρ c (Proc.devRef .tc main_arg5) := W2_of_ne m ρ c main_arg5 (by decide)
    _ = W0 m ρ c (Proc.devRef .tc main_arg5) := StableHlo.after_of_writes_sub hostOps0 _ hostOps0_writes (show main_arg5 ∉ hostOps0_W by decide)
    _ = m ((c : Thread nD τ).loc main_arg5) := rfl

/-- `main_arg6` reaches the last boundary as launched: no host stretch writes it and no region changes it. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (show main_arg6 ∉ hostOps2_W by decide)
    _ = W3 m ρ c (Proc.devRef .tc main_arg6) := W4_of_ne m ρ c main_arg6 (by decide)
    _ = W2 m ρ c (Proc.devRef .tc main_arg6) := StableHlo.after_of_writes_sub hostOps1 _ hostOps1_writes (show main_arg6 ∉ hostOps1_W by decide)
    _ = W1 m ρ c (Proc.devRef .tc main_arg6) := W2_of_ne m ρ c main_arg6 (by decide)
    _ = W0 m ρ c (Proc.devRef .tc main_arg6) := StableHlo.after_of_writes_sub hostOps0 _ hostOps0_writes (show main_arg6 ∉ hostOps0_W by decide)
    _ = m ((c : Thread nD τ).loc main_arg6) := rfl

/-- `main_arg7` reaches the last boundary as launched: no host stretch writes it and no region changes it. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (show main_arg7 ∉ hostOps2_W by decide)
    _ = W3 m ρ c (Proc.devRef .tc main_arg7) := W4_of_ne m ρ c main_arg7 (by decide)
    _ = W2 m ρ c (Proc.devRef .tc main_arg7) := StableHlo.after_of_writes_sub hostOps1 _ hostOps1_writes (show main_arg7 ∉ hostOps1_W by decide)
    _ = W1 m ρ c (Proc.devRef .tc main_arg7) := W2_of_ne m ρ c main_arg7 (by decide)
    _ = W0 m ρ c (Proc.devRef .tc main_arg7) := StableHlo.after_of_writes_sub hostOps0 _ hostOps0_writes (show main_arg7 ∉ hostOps0_W by decide)
    _ = m ((c : Thread nD τ).loc main_arg7) := rfl

/-- The frame: every weakly fair execution of @main terminates and leaves the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c)⟩)
    (run_all m ρ)

end Cert.Kernel.Hand

end
-- ==== Proof.KI.Reg0.lean ====
/-
  Region 0 of the program: one row block of the matrix product per grid point. What the body leaves in the
  output window's buffer is the product payload of the two input blocks; the proof data name it at every point,
  and the body obligation is the kernel's run on whole staging buffers.
-/
import proofs.«426799_j87754771792351_4_alg».proof.Proof.Gen.KernelIdeal.Launch
import proofs.«426799_j87754771792351_4_alg».proof.Proof.Gen.KernelIdeal.Skeleton
import proofs.«426799_j87754771792351_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x64 := Rect.unit (s := S10000x64) ![0, 0] S10000x64.size inb_S10000x64_S10000x64_0_0

/-- The output window's buffer after the body: its one store, the product of the two loaded blocks. -/
def out0_2 (x0 : Vec F S10000x128 .f32) (x1 : Vec F S128x64 .f32) : Vec F S10000x64 .f32 :=
  View.canon [⟨r0_2, k0_pay1 (View.ld x0 r0_0) (View.ld x1 r0_1)⟩]

theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in
/-- The body on whole staging buffers: the inputs are handed back as they were, the output holds the product. -/
theorem sound_kernel0 (c : Dev nD) (E : Set ℕ) (i : grid0.Coords) (arg1 : Memref sig .tc .vmem S10000x128 .f32) (harg1 : arg1.IsWhole) (arg2 : Memref sig .tc .vmem S128x64 .f32) (harg2 : arg2.IsWhole)
    (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline: the arrays as the region finds them; after the body each input's buffer at its
    block and the output's at the product of the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the program: one row block of the matrix product per grid point. What the body leaves in the
  output window's buffer is the product payload of the two input blocks; the proof data name it at every point,
  and the body obligation is the kernel's run on whole staging buffers.
-/
import proofs.«426799_j87754771792351_4_alg».proof.Proof.Gen.KernelIdeal.Launch
import proofs.«426799_j87754771792351_4_alg».proof.Proof.Gen.KernelIdeal.Skeleton
import proofs.«426799_j87754771792351_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x64 := Rect.unit (s := S10000x64) ![0, 0] S10000x64.size inb_S10000x64_S10000x64_0_0
abbrev r1_1 : Rect S64x64 := Rect.unit (s := S64x64) ![0, 0] S64x64.size inb_S64x64_S64x64_0_0
abbrev r1_2 : Rect S10000x64 := Rect.unit (s := S10000x64) ![0, 0] S10000x64.size inb_S10000x64_S10000x64_0_0

/-- The output window's buffer after the body: its one store, the product of the two loaded blocks. -/
def out1_2 (x0 : Vec F S10000x64 .f32) (x1 : Vec F S64x64 .f32) : Vec F S10000x64 .f32 :=
  View.canon [⟨r1_2, k1_pay1 (View.ld x0 r1_0) (View.ld x1 r1_1)⟩]

theorem cover1_2 (p0 : Vec F S10000x64 .f32) (y : S10000x64.Idx) :
    ∃ pc ∈ ([⟨r1_2, p0⟩] : List (View.Piece (Elt F) S10000x64 .f32)), y ∈ pc.1.set :=
  View.cover_of_tiled [⟨r1_2, p0⟩] S10000x64.size (by rfl) y

set_option maxHeartbeats 1000000 in
/-- The body on whole staging buffers: the inputs are handed back as they were, the output holds the product. -/
theorem sound_kernel1 (c : Dev nD) (E : Set ℕ) (i : grid1.Coords) (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this pipeline: the arrays as the region finds them; after the body each input's buffer at its
    block and the output's at the product of the input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2Runs.lean ====
/-
  Region 2 of the program, the readout: its body's run in each of the three cases its two conditionals meet on the
  grid. The first point clears the carried scratch and adds the first block's Gram matrix; the middle points add
  theirs; the last point adds its own and then computes the output row from the scratch. Each run hands the inputs
  back as they were and leaves the scratch (and, at the last point, the output buffer) with the stores it made.
-/
import proofs.«426799_j87754771792351_4_alg».proof.Proof.Gen.KernelIdeal.Launch
import proofs.«426799_j87754771792351_4_alg».proof.Proof.Gen.KernelIdeal.Skeleton
import proofs.«426799_j87754771792351_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions, decided over the grid -/

/-- The first conditional: the point is the grid's first. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- The second conditional: the point is the grid's last. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
theorem liveAt2_3_C : ∀ t : Fin cfg2.N, ¬cond2_0 (grid2.coords t) → cond2_1 (grid2.coords t) → cfg2.idle 3 (grid2.coords t) = false := by decide +kernel

/-! ## The memrefs the body is called with -/

abbrev VO2_3 : View sig .tc .vmem S1x10 .f32 := (Memref.whole cc2_stg3_0 : Memref sig .tc .vmem S1x10 .f32).view
abbrev ms2_0 (t : Fin cfg2.N) : Memref sig .tc .vmem S10000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x64x10 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x10 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x10 .f32 := win2_3.stage (cfg2.slots t 3)
abbrev hs2_3 (t : Fin cfg2.N) : (ms2_3 t).IsWhole := hstage2_3 ((cfg2.slots t 3).cast nbuf2_3)
/-- The scratch the kernel carries between points. -/
abbrev scM2_0 : Memref sig .tc .vmem S64x64 .f32 := Memref.whole cc2_scratch0
abbrev VS2_0 : View sig .tc .vmem S64x64 .f32 := scM2_0.view

/-! ## The runs -/

set_option maxHeartbeats 4000000 in
/-- The first point: the scratch is cleared, the block's Gram matrix added to it; the output buffer is untouched. -/
noncomputable def kernelRun2_A (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : cond2_0 i) (hc1 : ¬cond2_1 i)
    (x0 : Vec F S10000x64 .f32) (x1 : Vec F S64x64x10 .f32) (x2 : Vec F S1x10 .f32) :
    Σ' (L3 : List (View.Piece (Elt F) S1x10 .f32)), { LS0 : List (View.Piece (Elt F) S64x64 .f32) //
      ∀ (xi3 : Vec F S1x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2__readout_kernel i arg1 harg1 arg2 harg2 arg3 harg3 arg4 harg4 arg5 harg5) K } := by
  refine ⟨[], ?_, fun xi3 E K => ?run⟩
  case run =>
    simp only [cc2__readout_kernel_eq_skeleton]; unfold cc2__readout_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 4000000 in
/-- A middle point: the block's Gram matrix is added to what the scratch held; the output buffer is untouched. -/
noncomputable def kernelRun2_B (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : ¬cond2_1 i)
    (x0 : Vec F S10000x64 .f32) (x1 : Vec F S64x64x10 .f32) (x2 : Vec F S1x10 .f32) (xs0 : Vec F S64x64 .f32) :
    Σ' (L3 : List (View.Piece (Elt F) S1x10 .f32)), { LS0 : List (View.Piece (Elt F) S64x64 .f32) //
      ∀ (xi3 : Vec F S1x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2__readout_kernel i arg1 harg1 arg2 harg2 arg3 harg3 arg4 harg4 arg5 harg5) K } := by
  refine ⟨[], ?_, fun xi3 E K => ?run⟩
  case run =>
    simp only [cc2__readout_kernel_eq_skeleton]; unfold cc2__readout_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 8000000 in
/-- The last point: the block's Gram matrix is added to the scratch, and the output row computed from the sum. -/
noncomputable def kernelRun2_C (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : cond2_1 i)
    (x0 : Vec F S10000x64 .f32) (x1 : Vec F S64x64x10 .f32) (x2 : Vec F S1x10 .f32) (xs0 : Vec F S64x64 .f32) :
    Σ' (L3 : List (View.Piece (Elt F) S1x10 .f32)), { LS0 : List (View.Piece (Elt F) S64x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc2__readout_kernel i arg1 harg1 arg2 harg2 arg3 harg3 arg4 harg4 arg5 harg5) K } := by
  refine ⟨?_, ?_, fun E K => ?run⟩
  case run =>
    simp only [cc2__readout_kernel_eq_skeleton]; unfold cc2__readout_kernel_skel
    simp only [k2_part7_eq_skeleton, k2_part1_eq_skeleton, k2_part2_eq_skeleton, k2_part3_eq_skeleton, k2_part4_eq_skeleton, k2_part5_eq_skeleton, k2_part6_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.KI.Reg2.lean ====
/-
  Region 2 of the program, the readout, as proof data for the pipeline: what the carried scratch and the output
  buffer hold after each grid point (by recursion on the point, over the three cases' runs), the region invariant
  that carries the scratch's contents from one point to the next, and the body obligation at every point.
-/
import proofs.«426799_j87754771792351_4_alg».proof.Proof.KI.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The scoped buffers that are no staging buffer of this region, with the carried scratch at `P`: the other regions'
    staging buffers at anything. -/
def SR (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ P)

/-- The class invariant, with the scratch as a memref owned at some contents. -/
theorem PhiA2_eq (c : Dev nD) :
    (Pipeline.ΦA spec2 c : sProp 𝕄)
      = iprop(SR c iprop(∃ d, owns (c : Thread nD τ) scM2_0 fullShare d) ∗ (∃ r, prngReg c r)) := by
  unfold Pipeline.ΦA SR; rw [scopedRest2_eq]; simp only [scM2_0, owns_whole]; try rfl

/-- What case A leaves in the output buffer: nothing is stored; a placeholder nothing consults. -/
def out2_A_3 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : cond2_0 i) (hc1 : ¬cond2_1 i)
    (x0 : Vec F S10000x64 .f32) (x1 : Vec F S64x64x10 .f32) (x2 : Vec F S1x10 .f32) : Vec F S1x10 .f32 :=
  VO2_3.read (Elt F) (VO2_3.writes (Elt F) VO2_3.junk (kernelRun2_A c i arg1 harg1 arg2 harg2 arg3 harg3 arg4 harg4 arg5 harg5 hc0 hc1 x0 x1 x2).1)

/-- Case A's stores into the carried scratch cover it. -/
theorem scover2_A_0 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : cond2_0 i) (hc1 : ¬cond2_1 i)
    (x0 : Vec F S10000x64 .f32) (x1 : Vec F S64x64x10 .f32) (x2 : Vec F S1x10 .f32) (y : S64x64.Idx) :
    ∃ pc ∈ (kernelRun2_A c i arg1 harg1 arg2 harg2 arg3 harg3 arg4 harg4 arg5 harg5 hc0 hc1 x0 x1 x2).2.1, y ∈ pc.1.set :=
  View.cover_of_tiledL (kernelRun2_A c i arg1 harg1 arg2 harg2 arg3 harg3 arg4 harg4 arg5 harg5 hc0 hc1 x0 x1 x2).2.1 S64x64.size (by sl_kernel_rfl) y

/-- What case A leaves in the carried scratch. -/
def sout2_A_0 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : cond2_0 i) (hc1 : ¬cond2_1 i)
    (x0 : Vec F S10000x64 .f32) (x1 : Vec F S64x64x10 .f32) (x2 : Vec F S1x10 .f32) : Vec F S64x64 .f32 :=
  VS2_0.read (Elt F) (VS2_0.writes (Elt F) VS2_0.junk (kernelRun2_A c i arg1 harg1 arg2 harg2 arg3 harg3 arg4 harg4 arg5 harg5 hc0 hc1 x0 x1 x2).2.1)

/-- What case B leaves in the output buffer: nothing is stored; a placeholder nothing consults. -/
def out2_B_3 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : ¬cond2_1 i)
    (x0 : Vec F S10000x64 .f32) (x1 : Vec F S64x64x10 .f32) (x2 : Vec F S1x10 .f32) (xs0 : Vec F S64x64 .f32) : Vec F S1x10 .f32 :=
  VO2_3.read (Elt F) (VO2_3.writes (Elt F) VO2_3.junk (kernelRun2_B c i arg1 harg1 arg2 harg2 arg3 harg3 arg4 harg4 arg5 harg5 hc0 hc1 x0 x1 x2 xs0).1)

/-- Case B's stores into the carried scratch cover it. -/
theorem scover2_B_0 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : ¬cond2_1 i)
    (x0 : Vec F S10000x64 .f32) (x1 : Vec F S64x64x10 .f32) (x2 : Vec F S1x10 .f32) (xs0 : Vec F S64x64 .f32) (y : S64x64.Idx) :
    ∃ pc ∈ (kernelRun2_B c i arg1 harg1 arg2 harg2 arg3 harg3 arg4 harg4 arg5 harg5 hc0 hc1 x0 x1 x2 xs0).2.1, y ∈ pc.1.set :=
  View.cover_of_tiledL (kernelRun2_B c i arg1 harg1 arg2 harg2 arg3 harg3 arg4 harg4 arg5 harg5 hc0 hc1 x0 x1 x2 xs0).2.1 S64x64.size (by sl_kernel_rfl) y

/-- What case B leaves in the carried scratch. -/
def sout2_B_0 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : ¬cond2_1 i)
    (x0 : Vec F S10000x64 .f32) (x1 : Vec F S64x64x10 .f32) (x2 : Vec F S1x10 .f32) (xs0 : Vec F S64x64 .f32) : Vec F S64x64 .f32 :=
  VS2_0.read (Elt F) (VS2_0.writes (Elt F) VS2_0.junk (kernelRun2_B c i arg1 harg1 arg2 harg2 arg3 harg3 arg4 harg4 arg5 harg5 hc0 hc1 x0 x1 x2 xs0).2.1)

/-- What case C leaves in the output buffer: its pieces read back. -/
def out2_C_3 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : cond2_1 i)
    (x0 : Vec F S10000x64 .f32) (x1 : Vec F S64x64x10 .f32) (x2 : Vec F S1x10 .f32) (xs0 : Vec F S64x64 .f32) : Vec F S1x10 .f32 :=
  VO2_3.read (Elt F) (VO2_3.writes (Elt F) VO2_3.junk (kernelRun2_C c i arg1 harg1 arg2 harg2 arg3 harg3 arg4 harg4 arg5 harg5 hc0 hc1 x0 x1 x2 xs0).1)

theorem cover2_C_3 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : cond2_1 i)
    (x0 : Vec F S10000x64 .f32) (x1 : Vec F S64x64x10 .f32) (x2 : Vec F S1x10 .f32) (xs0 : Vec F S64x64 .f32) (y : S1x10.Idx) :
    ∃ pc ∈ (kernelRun2_C c i arg1 harg1 arg2 harg2 arg3 harg3 arg4 harg4 arg5 harg5 hc0 hc1 x0 x1 x2 xs0).1, y ∈ pc.1.set :=
  View.cover_of_tiledL (kernelRun2_C c i arg1 harg1 arg2 harg2 arg3 harg3 arg4 harg4 arg5 harg5 hc0 hc1 x0 x1 x2 xs0).1 S1x10.size (by sl_kernel_rfl) y

/-- Case C's stores into the carried scratch cover it. -/
theorem scover2_C_0 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : cond2_1 i)
    (x0 : Vec F S10000x64 .f32) (x1 : Vec F S64x64x10 .f32) (x2 : Vec F S1x10 .f32) (xs0 : Vec F S64x64 .f32) (y : S64x64.Idx) :
    ∃ pc ∈ (kernelRun2_C c i arg1 harg1 arg2 harg2 arg3 harg3 arg4 harg4 arg5 harg5 hc0 hc1 x0 x1 x2 xs0).2.1, y ∈ pc.1.set :=
  View.cover_of_tiledL (kernelRun2_C c i arg1 harg1 arg2 harg2 arg3 harg3 arg4 harg4 arg5 harg5 hc0 hc1 x0 x1 x2 xs0).2.1 S64x64.size (by sl_kernel_rfl) y

/-- What case C leaves in the carried scratch. -/
def sout2_C_0 (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : cond2_1 i)
    (x0 : Vec F S10000x64 .f32) (x1 : Vec F S64x64x10 .f32) (x2 : Vec F S1x10 .f32) (xs0 : Vec F S64x64 .f32) : Vec F S64x64 .f32 :=
  VS2_0.read (Elt F) (VS2_0.writes (Elt F) VS2_0.junk (kernelRun2_C c i arg1 harg1 arg2 harg2 arg3 harg3 arg4 harg4 arg5 harg5 hc0 hc1 x0 x1 x2 xs0).2.1)

/-! ## What the output buffer and the scratch hold after each point -/

/-- After the body at position `n`: the output buffer's contents and the scratch's, the case the point is in run at the
    point's memrefs and blocks, the scratch a later case reads at what the point before left. -/
def outsAt2 (c : Dev nD) : (n : ℕ) → n < cfg2.N → Vec F S1x10 .f32 × Vec F S64x64 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 10 = 0 then
      if h1 : (n + 1) % 10 = 9 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 10 = 9 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 10 = 0) (h1 : ¬t.val % 10 = 9) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 10 = 0) (h1 : ¬t.val % 10 = 9) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 10 = 0) (h1 : t.val % 10 = 9) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the scoped rest with the
    carried scratch at what the point before left in it, and the generator register at some state. -/
def PhiS2 (c : Dev nD) : (n : ℕ) → n ≤ cfg2.N → sProp 𝕄
  | 0, _ => Pipeline.ΦA spec2 c
  | n + 1, hn => iprop(SR c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(SR c (owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(SR c (owns (c : Thread nD τ) scM2_0 fullShare ((outsAt2 V c (n - 1) (by omega)).2)) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 8000000 in
/-- The body at any point: the closed forms say which case the point is in; the invariant hands the body the carried
    scratch at what the point before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
        unfold Dat.leavesExact; rw [liveAt2_0 t], after2_0]
  rw [show (dat2 V c).leavesExact 1 t = owns (c : Thread nD τ) (ms2_1 t) fullShare ((dat2 V c).after 1 t) from by
        unfold Dat.leavesExact; rw [liveAt2_1 t], after2_1]
  rw [show (dat2 V c).leavesExact 2 t = owns (c : Thread nD τ) (ms2_2 t) fullShare ((dat2 V c).after 2 t) from by
        unfold Dat.leavesExact; rw [liveAt2_2 t], after2_2]
  by_cases h0 : t.val % 10 = 0
  · by_cases h1 : t.val % 10 = 9
    · exfalso; omega
    · rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        unfold SR
        iintro ⟨⟨⟨Hr0, Hr1, Hr2, Hr3, Hr4, Hr5, Hr6, Hr7, Hr8, Hr9, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hr0 Hr1 Hr2 Hr3 Hr4 Hr5 Hr6 Hr7 Hr8 Hr9 HS0 Hg]
        · isplitl [Hr0 Hr1 Hr2 Hr3 Hr4 Hr5 Hr6 Hr7 Hr8 Hr9 HS0]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · exfalso; omega
  · by_cases h1 : t.val % 10 = 9
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      have hz : t.val ≠ 0 := by omega
      rw [PhiS2_castSucc V c t, PhiS2_pos V c _ _ hz]
      unfold SR
      iintro ⟨⟨⟨Hr0, Hr1, Hr2, Hr3, Hr4, Hr5, Hr6, Hr7, Hr8, Hr9, HS0⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hr0 Hr1 Hr2 Hr3 Hr4 Hr5 Hr6 Hr7 Hr8 Hr9 HS0 Hg]
      · isplitl [Hr0 Hr1 Hr2 Hr3 Hr4 Hr5 Hr6 Hr7 Hr8 Hr9 HS0]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          unfold owns; iexists _; isplitr
          swap; · iexact HS0
          ipureintro; exact View.read_writes_of_cover _ _ _ _ _ (scover2_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      have hz : t.val ≠ 0 := by omega
      rw [PhiS2_castSucc V c t, PhiS2_pos V c _ _ hz]
      unfold SR
      iintro ⟨⟨⟨Hr0, Hr1, Hr2, Hr3, Hr4, Hr5, Hr6, Hr7, Hr8, Hr9, HS0⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hr0 Hr1 Hr2 Hr3 Hr4 Hr5 Hr6 Hr7 Hr8 Hr9 HS0 Hg]
      · isplitl [Hr0 Hr1 Hr2 Hr3 Hr4 Hr5 Hr6 Hr7 Hr8 Hr9 HS0]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          unfold owns; iexists _; isplitr
          swap; · iexact HS0
          ipureintro; exact View.read_writes_of_cover _ _ _ _ _ (scover2_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's named contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 10 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  unfold SR
  iintro ⟨⟨Hr0, Hr1, Hr2, Hr3, Hr4, Hr5, Hr6, Hr7, Hr8, Hr9, HS0⟩, Hg⟩
  isplitl [Hr0 Hr1 Hr2 Hr3 Hr4 Hr5 Hr6 Hr7 Hr8 Hr9 HS0]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    iexists _; iexact HS0
  iexact Hg

end Cert.KernelIdeal.Hand

end
-- ==== Proof.KI.Run.lean ====
/-
  The run of @main: three host stretches and three kernel regions in turn. The buffer contents at each boundary are
  a fold from the launch memory (a host stretch applies its operations; a region leaves its arrays at what its
  write-backs produce and every other buffer as entered). Every weakly fair execution terminates, and the final
  memory holds every unscoped buffer at the last boundary's contents.
-/
import proofs.«426799_j87754771792351_4_alg».proof.Proof.KI.Reg0
import proofs.«426799_j87754771792351_4_alg».proof.Proof.KI.Reg1
import proofs.«426799_j87754771792351_4_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch before region 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at what the pipeline leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the pipeline leaves. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it. Its arrays are split out of the unscoped buffers and put back at what the pipeline leaves. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    iintro ⟨Hp, -, Hr⟩
    iapply (hin2 (V5 m ρ) c)
    unfold Pipeline.ΦA
    isplitl [Hr]; · iexact Hr
    iexact Hp
  hout c := by
    rw [Pipeline.ownSems0_none, show (pdats m ρ 2 c).Φ (Fin.last _) = (dat2 (V5 m ρ) c).Φ (Fin.last cfg2.N) from rfl]
    iintro HF
    ihave H := (hout2 (V5 m ρ) c) $$ HF
    unfold Pipeline.ΦA
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

theorem main_run (c : Dev nD) : main (F := F) c = Pipeline.Seg.run (segs m ρ) := (main_chain c).trans (by chain_rfl)

set_option backward.isDefEq.respectTransparency.types false in
/-- Every weakly fair execution of @main terminates, nothing faulting, and every final memory holds every unscoped
    buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.Val.RefOps.lean ====
/-
  The reference program's operations after the shared graph preamble, as functions of their operands: the two
  feature projections, the Gram matrix of the second layer's output, the logits and the softmax. The reference's
  stage values are these functions of one another.
-/
import proofs.«426799_j87754771792351_4_alg».proof.Proof.Gen.ReferenceIdeal.Read

noncomputable section

namespace Cert.ReferenceIdeal.Spec

open Cert.ReferenceIdeal Cert.ReferenceIdeal.Gen Idealize.ShloMosaic Idealize.ShloMosaic.TcCoe Idealize.SL.Sem Idealize.ShloMosaic.StableHlo

variable {F : FTy → Type} [FloatOps F]

/-- The first layer's projection `x · W`. -/
def mm1 (a : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none a w

/-- The second layer's projection `a · W`. -/
def mm2 (a : (⟨S100000x64, .f32⟩ : BufTy).Contents (Elt F)) (w : (⟨S64x64, .f32⟩ : BufTy).Contents (Elt F)) : (⟨S100000x64, .f32⟩ : BufTy).Contents (Elt F) :=
  Host.dotGeneral dot_S100000x64_S64x64_S100000x64_1_0_0_1_n_n none a w

/-- The Gram matrix `aᵀ · a`. -/
def gram (a : (⟨S100000x64, .f32⟩ : BufTy).Contents (Elt F)) : (⟨S64x64, .f32⟩ : BufTy).Contents (Elt F) :=
  Host.dotGeneral dot_S64x100000_S100000x64_S64x64_1_0_0_1_n_n none (transpose S64x100000 [1, 0] a transposes_S100000x64_S64x100000_1_0) a

/-- The logits: the flattened Gram matrix times the readout weights, plus the bias. -/
def logits (h : (⟨S64x64, .f32⟩ : BufTy).Contents (Elt F)) (x6 : (⟨S4096x10, .f32⟩ : BufTy).Contents (Elt F)) (x7 : (⟨S10, .f32⟩ : BufTy).Contents (Elt F)) : (⟨S1x10, .f32⟩ : BufTy).Contents (Elt F) :=
  addf (Host.dotGeneral dot_S1x4096_S4096x10_S1x10_1_0_0_1_n_n none (shapeCast _ h shapeCasts_S64x64_S1x4096) x6) (broadcastInDim S1x10 ![1] bcast_S10_S1x10_1 x7)

/-- The row maximum the softmax subtracts, broadcast along the row. -/
def rowMax (o : (⟨S1x10, .f32⟩ : BufTy).Contents (Elt F)) : (⟨S1x10, .f32⟩ : BufTy).Contents (Elt F) :=
  broadcastInDim S1x10 ![0, 1] bcast_S1x1_S1x10_0_1 (broadcastInDim S1x1 ![0] bcast_S1_S1x1_0
    (maximumf (broadcastInDim S1 ![] bcast_S_S1 (constant S_ .f32 0xFF800000#32))
      (Host.reduce FloatOps.maximumf o (constant S_ .f32 0xFF800000#32) reducesTo_S1x10_S1_d1 h_S_)))

/-- The exponentials of the shifted logits. -/
def expShift (o : (⟨S1x10, .f32⟩ : BufTy).Contents (Elt F)) : (⟨S1x10, .f32⟩ : BufTy).Contents (Elt F) :=
  Host.exp (subf o (rowMax o))

/-- The softmax of a row. -/
def softmax (o : (⟨S1x10, .f32⟩ : BufTy).Contents (Elt F)) : (⟨S1x10, .f32⟩ : BufTy).Contents (Elt F) :=
  Host.divf (expShift o) (broadcastInDim S1x10 ![0, 1] bcast_S1x1_S1x10_0_1 (broadcastInDim S1x1 ![0] bcast_S1_S1x1_0
    (Host.reduceAdd (expShift o) (constant S_ .f32 0x00000000#32) reducesTo_S1x10_S1_d1 h_S_)))

/-- The reference after the second layer: softmax of the logits of the Gram matrix. -/
def tail (a2 : (⟨S100000x64, .f32⟩ : BufTy).Contents (Elt F)) (x6 : (⟨S4096x10, .f32⟩ : BufTy).Contents (Elt F)) (x7 : (⟨S10, .f32⟩ : BufTy).Contents (Elt F)) : (⟨S1x10, .f32⟩ : BufTy).Contents (Elt F) :=
  softmax (logits (gram a2) x6 x7)

open Cert.ReferenceIdeal.Read

theorem val27_eq (x0 : (⟨S100000x128, .f32⟩ : BufTy).Contents (Elt F)) (x2 : (⟨S128x64, .f32⟩ : BufTy).Contents (Elt F)) :
    val_main_v27 (F := F) x0 x2 = mm1 x0 x2 := rfl

theorem val44_eq (x0 : (⟨S100000x128, .f32⟩ : BufTy).Contents (Elt F)) (x1 : (⟨S2x3200000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) :
    val_main_v44 (F := F) x0 x1 x2 x3 x4 = mm2 (val_main_v43 (F := F) x0 x1 x2 x3) x4 := rfl

theorem val77_eq (x0 : (⟨S100000x128, .f32⟩ : BufTy).Contents (Elt F)) (x1 : (⟨S2x3200000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S4096x10, .f32⟩ : BufTy).Contents (Elt F)) (x7 : (⟨S10, .f32⟩ : BufTy).Contents (Elt F)) :
    val_main_v77 (F := F) x0 x1 x2 x3 x4 x5 x6 x7 = tail (val_main_v60 (F := F) x0 x1 x2 x3 x4 x5) x6 x7 := rfl

end Cert.ReferenceIdeal.Spec

end
-- ==== Proof.Val.B0a.lean ====
/-
  The graph preamble, kernel side against reference side: the source and destination index vectors the first host
  stretch computes are the reference's, as functions of the edge array.
-/
import proofs.«426799_j87754771792351_4_alg».proof.Proof.KI.Run
import proofs.«426799_j87754771792351_4_alg».proof.Proof.Val.RefOps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Read Cert.ReferenceIdeal.Spec

variable (m : (ℓ : Loc nD τ sig) → Buf (Elt Ideal) ℓ) (ρ : Dev nD → PrngReg)

set_option maxHeartbeats 40000000 in
set_option maxRecDepth 8192 in
theorem e3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results
  rfl

set_option maxHeartbeats 40000000 in
set_option maxRecDepth 8192 in
theorem e6 (c : Dev nD) : W1 m ρ c (Proc.devRef .tc main_v6) = val_main_v6 (F := Ideal) (m ((c : Thread nD τ).loc main_arg1)) := by
  show StableHlo.after hostOps0 (W0 m ρ c) (Proc.devRef .tc main_v6) = _
  after_results
  rfl

end Cert.KernelIdeal.Hand

end
-- ==== Proof.Val.B0b.lean ====
/-
  The graph preamble, kernel side against reference side: the symmetric normalisation weights the first host stretch
  computes (degrees by a scatter-add of ones, their inverse square roots gathered at both ends of every edge and
  multiplied) are the reference's, as a function of the edge array.
-/
import proofs.«426799_j87754771792351_4_alg».proof.Proof.KI.Run
import proofs.«426799_j87754771792351_4_alg».proof.Proof.Val.RefOps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Read Cert.ReferenceIdeal.Spec

variable (m : (ℓ : Loc nD τ sig) → Buf (Elt Ideal) ℓ) (ρ : Dev nD → PrngReg)

set_option maxHeartbeats 40000000 in
set_option maxRecDepth 8192 in
theorem e26 (c : Dev nD) : W1 m ρ c (Proc.devRef .tc main_v26) = val_main_v26 (F := Ideal) (m ((c : Thread nD τ).loc main_arg1)) := by
  show StableHlo.after hostOps0 (W0 m ρ c) (Proc.devRef .tc main_v26) = _
  after_results
  rfl

end Cert.KernelIdeal.Hand

end
-- ==== Proof.Val.Keep.lean ====
/-
  What the host stretches and the regions leave untouched: a buffer no operation of a stretch writes keeps its
  contents across the stretch, and a region changes only its output array. So the index vectors, the weights and the
  argument arrays are, at every later boundary, what the first stretch (or the launch) made them.
-/
import proofs.«426799_j87754771792351_4_alg».proof.Proof.KI.Run
import proofs.«426799_j87754771792351_4_alg».proof.Proof.Gen.KernelIdeal.Regions
import proofs.«426799_j87754771792351_4_alg».proof.Proof.Val.B0a
import proofs.«426799_j87754771792351_4_alg».proof.Proof.Val.B0b
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Read Cert.ReferenceIdeal.Spec

variable (m : (ℓ : Loc nD τ sig) → Buf (Elt Ideal) ℓ) (ρ : Dev nD → PrngReg)

theorem W1_keep (c : Dev nD) (b : Ref sig .tc) (hb : b ∉ hostOps0_W) : W1 m ρ c (Proc.devRef .tc b) = m ((c : Thread nD τ).loc b) :=
  (StableHlo.after_of_writes_sub hostOps0 _ hostOps0_writes hb).trans rfl
theorem W3_keep (c : Dev nD) (b : Ref sig .tc) (hb : b ∉ hostOps1_W) : W3 m ρ c (Proc.devRef .tc b) = W2 m ρ c (Proc.devRef .tc b) :=
  StableHlo.after_of_writes_sub hostOps1 _ hostOps1_writes hb
theorem W5_keep (c : Dev nD) (b : Ref sig .tc) (hb : b ∉ hostOps2_W) : W5 m ρ c (Proc.devRef .tc b) = W4 m ρ c (Proc.devRef .tc b) :=
  StableHlo.after_of_writes_sub hostOps2 _ hostOps2_writes hb

theorem W2_main_v3 (c : Dev nD) : W2 m ρ c (Proc.devRef .tc main_v3) = val_main_v3 (F := Ideal) (m ((c : Thread nD τ).loc main_arg1)) :=
  (W2_of_ne m ρ c main_v3 (by decide)).trans (e3 m ρ c)

theorem W2_main_v6 (c : Dev nD) : W2 m ρ c (Proc.devRef .tc main_v6) = val_main_v6 (F := Ideal) (m ((c : Thread nD τ).loc main_arg1)) :=
  (W2_of_ne m ρ c main_v6 (by decide)).trans (e6 m ρ c)

theorem W2_main_v26 (c : Dev nD) : W2 m ρ c (Proc.devRef .tc main_v26) = val_main_v26 (F := Ideal) (m ((c : Thread nD τ).loc main_arg1)) :=
  (W2_of_ne m ρ c main_v26 (by decide)).trans (e26 m ρ c)

theorem W2_main_arg3 (c : Dev nD) : W2 m ρ c (Proc.devRef .tc main_arg3) = (m ((c : Thread nD τ).loc main_arg3)) :=
  (W2_of_ne m ρ c main_arg3 (by decide)).trans (W1_keep m ρ c main_arg3 (by decide))

theorem W3_main_arg4 (c : Dev nD) : W3 m ρ c (Proc.devRef .tc main_arg4) = (m ((c : Thread nD τ).loc main_arg4)) :=
  (W3_keep m ρ c main_arg4 (by decide)).trans ((W2_of_ne m ρ c main_arg4 (by decide)).trans (W1_keep m ρ c main_arg4 (by decide)))

theorem W4_main_v3 (c : Dev nD) : W4 m ρ c (Proc.devRef .tc main_v3) = val_main_v3 (F := Ideal) (m ((c : Thread nD τ).loc main_arg1)) :=
  (W4_of_ne m ρ c main_v3 (by decide)).trans ((W3_keep m ρ c main_v3 (by decide)).trans ((W2_of_ne m ρ c main_v3 (by decide)).trans (e3 m ρ c)))

theorem W4_main_v6 (c : Dev nD) : W4 m ρ c (Proc.devRef .tc main_v6) = val_main_v6 (F := Ideal) (m ((c : Thread nD τ).loc main_arg1)) :=
  (W4_of_ne m ρ c main_v6 (by decide)).trans ((W3_keep m ρ c main_v6 (by decide)).trans ((W2_of_ne m ρ c main_v6 (by decide)).trans (e6 m ρ c)))

theorem W4_main_v26 (c : Dev nD) : W4 m ρ c (Proc.devRef .tc main_v26) = val_main_v26 (F := Ideal) (m ((c : Thread nD τ).loc main_arg1)) :=
  (W4_of_ne m ρ c main_v26 (by decide)).trans ((W3_keep m ρ c main_v26 (by decide)).trans ((W2_of_ne m ρ c main_v26 (by decide)).trans (e26 m ρ c)))

theorem W4_main_arg5 (c : Dev nD) : W4 m ρ c (Proc.devRef .tc main_arg5) = (m ((c : Thread nD τ).loc main_arg5)) :=
  (W4_of_ne m ρ c main_arg5 (by decide)).trans ((W3_keep m ρ c main_arg5 (by decide)).trans ((W2_of_ne m ρ c main_arg5 (by decide)).trans (W1_keep m ρ c main_arg5 (by decide))))

theorem W4_main_arg6 (c : Dev nD) : W4 m ρ c (Proc.devRef .tc main_arg6) = (m ((c : Thread nD τ).loc main_arg6)) :=
  (W4_of_ne m ρ c main_arg6 (by decide)).trans ((W3_keep m ρ c main_arg6 (by decide)).trans ((W2_of_ne m ρ c main_arg6 (by decide)).trans (W1_keep m ρ c main_arg6 (by decide))))

theorem W4_main_arg7 (c : Dev nD) : W4 m ρ c (Proc.devRef .tc main_arg7) = (m ((c : Thread nD τ).loc main_arg7)) :=
  (W4_of_ne m ρ c main_arg7 (by decide)).trans ((W3_keep m ρ c main_arg7 (by decide)).trans ((W2_of_ne m ρ c main_arg7 (by decide)).trans (W1_keep m ρ c main_arg7 (by decide))))

end Cert.KernelIdeal.Hand

end
-- ==== Proof.Val.Mat.lean ====
/-
  The two projection regions, read as values. Each region is a matrix product cut into ten row blocks: grid point `t`
  loads rows `10000 t … 10000 t + 9999` of the left operand and the whole right operand, and writes back block `t` of the
  result. At the ideal values the body's product into a zero accumulator is, entry by entry, the sum over `k` of the
  products `x[p, k] · W[k, q]`; the reference's product of the whole arrays is the same sum at row `10000 t + p`. So what
  point `t` writes back is block `t` of the reference's product, the ten blocks cover the result array (row `r` lies in
  block `r / 10000`), and the array ends holding the reference's product.
-/
import proofs.«426799_j87754771792351_4_alg».proof.Proof.KI.Reg0
import proofs.«426799_j87754771792351_4_alg».proof.Proof.KI.Reg1
import proofs.«426799_j87754771792351_4_alg».proof.Proof.Val.RefOps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The block product at an index -/

/-- The zero offsets of a whole-buffer rectangle, as a constant function. -/
theorem zeroOff : (![0, 0] : Fin 2 → Nat) = fun _ => 0 := funext fun a => by fin_cases a <;> rfl

theorem lhs_blk0_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_blk0_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_blk0_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_blk0_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Region 0's payload at row `p`, column `q` of its block: the sum over `k` of the products of the two loaded blocks. -/
theorem pay0_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  refine (Ideal.matmul_constant_zero_apply dot_S10000x128_S128x64_S10000x64_1_0_0_1_n_n none _ _ (ix2 p q)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_blk0_0 _ _
    | ⟨1, _⟩ => exact (lhs_blk0_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs_blk0_0 _ _).trans hk
    | ⟨1, _⟩ => exact rhs_blk0_1 _ _)
  rw [el, er]
  rfl

/-- The reference's first projection at row `r`, column `q`: the same sum over the whole arrays. -/
theorem mm1_apply (a : (⟨S100000x128, .f32⟩ : BufTy).Contents (Elt Ideal)) (w : (⟨S128x64, .f32⟩ : BufTy).Contents (Elt Ideal)) (r : Fin 100000) (q : Fin 64) :
    Cert.ReferenceIdeal.Spec.mm1 (F := Ideal) a w (ix2 r q) = ∑ k : Fin 128, a (ix2 r k) * w (ix2 k q) := by
  refine (Cert.ReferenceIdeal.Read.val_main_v27_apply a w (ix2 r q)).trans ?_
  refine Finset.sum_congr rfl fun k _ => ?_
  have el : Cert.ReferenceIdeal.Read.lidx_main_v27 (ix2 r q) k = ix2 r k := funext fun a => Fin.ext (by match a with | ⟨0, _⟩ => rfl | ⟨1, _⟩ => rfl)
  have er : Cert.ReferenceIdeal.Read.ridx_main_v27 (ix2 r q) k = ix2 k q := funext fun a => Fin.ext (by match a with | ⟨0, _⟩ => rfl | ⟨1, _⟩ => rfl)
  rw [el, er]

/-! ## The input blocks as rows of their arrays -/

/-- The index maps of region 0 over the grid: the two row windows sit at block `t` on the rows and block 0 on the
    columns, the weight window at block 0 on both axes. -/
theorem idx_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point `t`, at row `p` and column `k`, is the array at row `10000 t + p`. -/
theorem iblk0_0_apply (c : Dev nD) (t : Fin cfg0.N) (p : Fin 10000) (k : Fin 128) (r : Fin 100000) (hr : r.val = t.val * 10000 + p.val) :
    (iblk0 V c 0 t : Vec Ideal S10000x128 .f32) (ix2 p k) = (V c main_arg0 : S100000x128.Idx → Elt Ideal .f32) (ix2 r k) := by
  obtain ⟨e0, e1, -⟩ := idx_maps0 t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The weight window's block at every point is the whole weight array. -/
theorem iblk0_1_apply (c : Dev nD) (t : Fin cfg0.N) (k : Fin 128) (q : Fin 64) :
    (iblk0 V c 1 t : Vec Ideal S128x64 .f32) (ix2 k q) = (V c main_arg2 : S128x64.Idx → Elt Ideal .f32) (ix2 k q) := by
  obtain ⟨-, -, e0, e1, -⟩ := idx_maps0 t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-! ## One point's block of the result -/

/-- Row `p`, column `q` of what point `t` computes is the reference's product at row `10000 t + p`: both are the sum
    over `k` of the same products. -/
theorem point0 (c : Dev nD) (t : Fin cfg0.N) (p : Fin 10000) (q : Fin 64) (r : Fin 100000) (hr : r.val = t.val * 10000 + p.val) :
    k0_pay1 (F := Ideal) (iblk0 V c 0 t) (iblk0 V c 1 t) (ix2 p q)
      = Cert.ReferenceIdeal.Spec.mm1 (F := Ideal) (V c main_arg0) (V c main_arg2) (ix2 r q) := by
  refine (pay0_apply (iblk0 V c 0 t) (iblk0 V c 1 t) p q).trans ((mm1_apply (V c main_arg0) (V c main_arg2) r q).trans ?_).symm
  refine Finset.sum_congr rfl fun k _ => ?_
  exact congrArg₂ (· * ·) (iblk0_0_apply V c t p k r hr).symm (iblk0_1_apply V c t k q).symm

/-- What point `t` writes back is block `t` of the reference's product of the whole arrays. -/
theorem flushed_eq0 (c : Dev nD) (t : Fin cfg0.N) :
    (dat0 (F := Ideal) V c).flushed 2 t = ((cfg0.win 2).blk t).view.read (Elt Ideal) (Cert.ReferenceIdeal.Spec.mm1 (F := Ideal) (V c main_arg0) (V c main_arg2)) := by
  show (cfg0.win 2).cut (grid0.coords t) ((dat0 V c).after 2 t) = _
  rw [after0_2]
  unfold out0_2
  rw [View.canon_unit_zero zeroOff]
  simp only [View.ld_unit_zero (S := S10000x128) zeroOff, View.ld_unit_zero (S := S128x64) zeroOff]
  funext j
  obtain ⟨-, -, -, -, e0, e1⟩ := idx_maps0 t
  have hN : cfg0.N = 10 := N_0
  have ht : t.val < 10 := by have := t.isLt; omega
  have hj0 : (j 0).val < 10000 := (j 0).isLt
  have hj1 : (j 1).val < 64 := (j 1).isLt
  rw [View.read_apply]
  refine Eq.trans ?_ ((point0 V c t ⟨(j 0).val, hj0⟩ ⟨(j 1).val, hj1⟩ ⟨t.val * 10000 + (j 0).val, by omega⟩ rfl).trans ?_)
  · show k0_pay1 (F := Ideal) (iblk0 V c 0 t) (iblk0 V c 1 t) _ = k0_pay1 (F := Ideal) (iblk0 V c 0 t) (iblk0 V c 1 t) _
    refine congrArg _ (funext fun a => ?_)
    match a with
    | ⟨0, _⟩ => rfl
    | ⟨1, _⟩ => rfl
  · show Cert.ReferenceIdeal.Spec.mm1 (F := Ideal) (V c main_arg0) (V c main_arg2) _ = Cert.ReferenceIdeal.Spec.mm1 (F := Ideal) (V c main_arg0) (V c main_arg2) _
    refine congrArg _ (funext fun a => Fin.ext ?_)
    match a with
    | ⟨0, _⟩ => show t.val * 10000 + (j 0).val = win0_2.index t (0 : Fin 2) * 10000 + 1 * (j 0).val; rw [e0]; omega
    | ⟨1, _⟩ => show (j 1).val = win0_2.index t (1 : Fin 2) * 64 + 1 * (j 1).val; rw [e1]; omega

/-! ## From the blocks to the array -/

/-- An index of the result array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v27).slice (win0_2.rect t)).set ↔ _
  rw [View.set_slice_whole, Rect.mem_set_unit]
  exact Iff.rfl

/-- Row `r` of the result array is written back by point `r / 10000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, e0, e1⟩ := idx_maps0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e0, ht]; omega
  | ⟨1, _⟩ => show win0_2.index t (1 : Fin 2) * 64 ≤ (i 1).val ∧ (i 1).val < win0_2.index t (1 : Fin 2) * 64 + 64; rw [e1]; omega

/-- Region 0's result array after the run is the reference's first projection of the region's two argument arrays. -/
theorem arr0 (c : Dev nD) :
    (dat0 (F := Ideal) V c).arrAt 2 cfg0.N = Cert.ReferenceIdeal.Spec.mm1 (F := Ideal) (V c main_arg0) (V c main_arg2) := by
  exact (dat0 (F := Ideal) V c).arrAt_eq_of_cover 2 (Cert.ReferenceIdeal.Spec.mm1 (F := Ideal) (V c main_arg0) (V c main_arg2))
    (fun t _ => flushed_eq0 V c t) cover0

/-! # Region 1: the same, with the second layer's operands -/

/-! ## The block product at an index -/

theorem lhs_blk1_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_blk1_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_blk1_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_blk1_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Region 1's payload at row `p`, column `q` of its block: the sum over `k` of the products of the two loaded blocks
    (the cast of the row block to its own shape changes nothing). -/
theorem pay1_apply (x0 : Vec Ideal S10000x64 .f32) (x1 : Vec Ideal S64x64 .f32) (p : Fin 10000) (q : Fin 64) :
    k1_pay1 (F := Ideal) x0 x1 (ix2 p q) = ∑ k : Fin 64, x0 (ix2 p k) * x1 (ix2 k q) := by
  unfold k1_pay1
  rw [shapeCast_self]
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_blk1_0 _ _
    | ⟨1, _⟩ => exact (lhs_blk1_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_blk1_0 _ _).trans hk
    | ⟨1, _⟩ => exact rhs_blk1_1 _ _)
  rw [el, er]
  rfl

/-- The reference's second projection at row `r`, column `q`: the same sum over the whole arrays. -/
theorem mm2_apply (a : (⟨S100000x64, .f32⟩ : BufTy).Contents (Elt Ideal)) (w : (⟨S64x64, .f32⟩ : BufTy).Contents (Elt Ideal)) (r : Fin 100000) (q : Fin 64) :
    Cert.ReferenceIdeal.Spec.mm2 (F := Ideal) a w (ix2 r q) = ∑ k : Fin 64, a (ix2 r k) * w (ix2 k q) := by
  unfold Cert.ReferenceIdeal.Spec.mm2
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r q) ((contrEquiv1 Cert.ReferenceIdeal.dot_S100000x64_S64x64_S100000x64_1_0_0_1_n_n 64 rfl rfl).symm k) = ix2 r k := funext fun a => Fin.ext (by
    match a with
    | ⟨0, _⟩ => exact Cert.ReferenceIdeal.Read.lhs_main_v44_0 _ _
    | ⟨1, _⟩ => exact (Cert.ReferenceIdeal.Read.lhs_main_v44_1 _ _).trans hk)
  have er : Cert.ReferenceIdeal.dot_S100000x64_S64x64_S100000x64_1_0_0_1_n_n.rhsIdx (ix2 r q) ((contrEquiv1 Cert.ReferenceIdeal.dot_S100000x64_S64x64_S100000x64_1_0_0_1_n_n 64 rfl rfl).symm k) = ix2 k q := funext fun a => Fin.ext (by
    match a with
    | ⟨0, _⟩ => exact (Cert.ReferenceIdeal.Read.rhs_main_v44_0 _ _).trans hk
    | ⟨1, _⟩ => exact Cert.ReferenceIdeal.Read.rhs_main_v44_1 _ _)
  rw [el, er]

/-! ## The input blocks as rows of their arrays -/

/-- The index maps of region 1 over the grid: the two row windows sit at block `t` on the rows and block 0 on the
    columns, the weight window at block 0 on both axes. -/
theorem idx_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row window's block at point `t`, at row `p` and column `k`, is the array at row `10000 t + p`. -/
theorem iblk1_0_apply (c : Dev nD) (t : Fin cfg1.N) (p : Fin 10000) (k : Fin 64) (r : Fin 100000) (hr : r.val = t.val * 10000 + p.val) :
    (iblk1 V c 0 t : Vec Ideal S10000x64 .f32) (ix2 p k) = (V c main_v43 : S100000x64.Idx → Elt Ideal .f32) (ix2 r k) := by
  obtain ⟨e0, e1, -⟩ := idx_maps1 t
  unfold iblk1
  rw [View.read_apply]
  show V c main_v43 _ = V c main_v43 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- The weight window's block at every point is the whole weight array. -/
theorem iblk1_1_apply (c : Dev nD) (t : Fin cfg1.N) (k : Fin 64) (q : Fin 64) :
    (iblk1 V c 1 t : Vec Ideal S64x64 .f32) (ix2 k q) = (V c main_arg4 : S64x64.Idx → Elt Ideal .f32) (ix2 k q) := by
  obtain ⟨-, -, e0, e1, -⟩ := idx_maps1 t
  unfold iblk1
  rw [View.read_apply]
  show V c main_arg4 _ = V c main_arg4 _
  congr 1
  funext a
  apply Fin.ext
  match a with
  | ⟨0, _⟩ => show win1_1.index t (0 : Fin 2) * 64 + 1 * k.val = k.val; rw [e0]; omega
  | ⟨1, _⟩ => show win1_1.index t (1 : Fin 2) * 64 + 1 * q.val = q.val; rw [e1]; omega

/-! ## One point's block of the result -/

/-- Row `p`, column `q` of what point `t` computes is the reference's product at row `10000 t + p`: both are the sum
    over `k` of the same products. -/
theorem point1 (c : Dev nD) (t : Fin cfg1.N) (p : Fin 10000) (q : Fin 64) (r : Fin 100000) (hr : r.val = t.val * 10000 + p.val) :
    k1_pay1 (F := Ideal) (iblk1 V c 0 t) (iblk1 V c 1 t) (ix2 p q)
      = Cert.ReferenceIdeal.Spec.mm2 (F := Ideal) (V c main_v43) (V c main_arg4) (ix2 r q) := by
  refine (pay1_apply (iblk1 V c 0 t) (iblk1 V c 1 t) p q).trans ((mm2_apply (V c main_v43) (V c main_arg4) r q).trans ?_).symm
  refine Finset.sum_congr rfl fun k _ => ?_
  exact congrArg₂ (· * ·) (iblk1_0_apply V c t p k r hr).symm (iblk1_1_apply V c t k q).symm

/-- What point `t` writes back is block `t` of the reference's product of the whole arrays. -/
theorem flushed_eq1 (c : Dev nD) (t : Fin cfg1.N) :
    (dat1 (F := Ideal) V c).flushed 2 t = ((cfg1.win 2).blk t).view.read (Elt Ideal) (Cert.ReferenceIdeal.Spec.mm2 (F := Ideal) (V c main_v43) (V c main_arg4)) := by
  show (cfg1.win 2).cut (grid1.coords t) ((dat1 V c).after 2 t) = _
  rw [after1_2]
  unfold out1_2
  rw [View.canon_unit_zero zeroOff]
  simp only [View.ld_unit_zero (S := S10000x64) zeroOff, View.ld_unit_zero (S := S64x64) zeroOff]
  funext j
  obtain ⟨-, -, -, -, e0, e1⟩ := idx_maps1 t
  have hN : cfg1.N = 10 := N_1
  have ht : t.val < 10 := by have := t.isLt; omega
  have hj0 : (j 0).val < 10000 := (j 0).isLt
  have hj1 : (j 1).val < 64 := (j 1).isLt
  rw [View.read_apply]
  refine Eq.trans ?_ ((point1 V c t ⟨(j 0).val, hj0⟩ ⟨(j 1).val, hj1⟩ ⟨t.val * 10000 + (j 0).val, by omega⟩ rfl).trans ?_)
  · show k1_pay1 (F := Ideal) (iblk1 V c 0 t) (iblk1 V c 1 t) _ = k1_pay1 (F := Ideal) (iblk1 V c 0 t) (iblk1 V c 1 t) _
    refine congrArg _ (funext fun a => ?_)
    match a with
    | ⟨0, _⟩ => rfl
    | ⟨1, _⟩ => rfl
  · show Cert.ReferenceIdeal.Spec.mm2 (F := Ideal) (V c main_v43) (V c main_arg4) _ = Cert.ReferenceIdeal.Spec.mm2 (F := Ideal) (V c main_v43) (V c main_arg4) _
    refine congrArg _ (funext fun a => Fin.ext ?_)
    match a with
    | ⟨0, _⟩ => show t.val * 10000 + (j 0).val = win1_2.index t (0 : Fin 2) * 10000 + 1 * (j 0).val; rw [e0]; omega
    | ⟨1, _⟩ => show (j 1).val = win1_2.index t (1 : Fin 2) * 64 + 1 * (j 1).val; rw [e1]; omega

/-! ## From the blocks to the array -/

/-- An index of the result array is in point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v44).slice (win1_2.rect t)).set ↔ _
  rw [View.set_slice_whole, Rect.mem_set_unit]
  exact Iff.rfl

/-- Row `r` of the result array is written back by point `r / 10000`. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by omega⟩, rfl⟩
  obtain ⟨-, -, -, -, e0, e1⟩ := idx_maps1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; rw [e0, ht]; omega
  | ⟨1, _⟩ => show win1_2.index t (1 : Fin 2) * 64 ≤ (i 1).val ∧ (i 1).val < win1_2.index t (1 : Fin 2) * 64 + 64; rw [e1]; omega

/-- Region 1's result array after the run is the reference's second projection of the region's two operand arrays. -/
theorem arr1 (c : Dev nD) :
    (dat1 (F := Ideal) V c).arrAt 2 cfg1.N = Cert.ReferenceIdeal.Spec.mm2 (F := Ideal) (V c main_v43) (V c main_arg4) := by
  exact (dat1 (F := Ideal) V c).arrAt_eq_of_cover 2 (Cert.ReferenceIdeal.Spec.mm2 (F := Ideal) (V c main_v43) (V c main_arg4))
    (fun t _ => flushed_eq1 V c t) cover1

end Cert.KernelIdeal.Hand

end
-- ==== Proof.Val.B1.lean ====
/-
  The first layer, kernel side against reference side. Region 0 leaves the projection of the launch arrays; the
  second host stretch gathers its rows at the edge sources, scales them by the edge weights, scatter-adds them at
  the edge destinations and adds the bias: the same operations the reference applies to the same values.
-/
import proofs.«426799_j87754771792351_4_alg».proof.Proof.Val.Keep
import proofs.«426799_j87754771792351_4_alg».proof.Proof.Val.Mat
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Read Cert.ReferenceIdeal.Spec

variable (m : (ℓ : Loc nD τ sig) → Buf (Elt Ideal) ℓ) (ρ : Dev nD → PrngReg)

theorem W2_v27 (c : Dev nD) : W2 m ρ c (Proc.devRef .tc main_v27) = val_main_v27 (F := Ideal) (m ((c : Thread nD τ).loc main_arg0)) (m ((c : Thread nD τ).loc main_arg2)) := by
  have h := (W2_arr m ρ c 2).trans (arr0 (V1 m ρ) c)
  have a0 : V1 m ρ c main_arg0 = (m ((c : Thread nD τ).loc main_arg0)) := W1_keep m ρ c main_arg0 (by decide)
  have a2 : V1 m ρ c main_arg2 = (m ((c : Thread nD τ).loc main_arg2)) := W1_keep m ρ c main_arg2 (by decide)
  rw [a0, a2] at h
  exact h

set_option maxHeartbeats 40000000 in
set_option maxRecDepth 8192 in
theorem e43 (c : Dev nD) : W3 m ρ c (Proc.devRef .tc main_v43) = val_main_v43 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v43) = _
  after_results
  rw [W2_v27 m ρ c, W2_main_v3 m ρ c, W2_main_v6 m ρ c, W2_main_v26 m ρ c, W2_main_arg3 m ρ c]
  rfl

end Cert.KernelIdeal.Hand

end
-- ==== Proof.Val.B2a.lean ====
/-
  The second layer, kernel side against reference side: region 1 leaves the projection of the first layer's output,
  and the third host stretch aggregates it over the graph as the reference does.
-/
import proofs.«426799_j87754771792351_4_alg».proof.Proof.Val.B1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Read Cert.ReferenceIdeal.Spec

variable (m : (ℓ : Loc nD τ sig) → Buf (Elt Ideal) ℓ) (ρ : Dev nD → PrngReg)

theorem W4_v44 (c : Dev nD) : W4 m ρ c (Proc.devRef .tc main_v44) = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h := (W4_arr m ρ c 2).trans (arr1 (V3 m ρ) c)
  have a0 : V3 m ρ c main_v43 = val_main_v43 (F := Ideal) (m ((c : Thread nD τ).loc main_arg0)) (m ((c : Thread nD τ).loc main_arg1)) (m ((c : Thread nD τ).loc main_arg2)) (m ((c : Thread nD τ).loc main_arg3)) := e43 m ρ c
  have a4 : V3 m ρ c main_arg4 = (m ((c : Thread nD τ).loc main_arg4)) := W3_main_arg4 m ρ c
  rw [a0, a4] at h
  exact h

set_option maxHeartbeats 40000000 in
set_option maxRecDepth 8192 in
theorem e60 (c : Dev nD) : W5 m ρ c (Proc.devRef .tc main_v60) = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v60) = _
  after_results
  rw [W4_v44 m ρ c, W4_main_v3 m ρ c, W4_main_v6 m ρ c, W4_main_v26 m ρ c, W4_main_arg5 m ρ c]
  rfl

end Cert.KernelIdeal.Hand

end
-- ==== Proof.Val.B2b.lean ====
/-
  The readout's two small operands as the third host stretch lays them out: the bias as a row, and the readout
  weights regrouped as 64 × 64 × 10 with their first two axes exchanged.
-/
import proofs.«426799_j87754771792351_4_alg».proof.Proof.Val.Keep
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Read Cert.ReferenceIdeal.Spec

variable (m : (ℓ : Loc nD τ sig) → Buf (Elt Ideal) ℓ) (ρ : Dev nD → PrngReg)

set_option maxHeartbeats 40000000 in
set_option maxRecDepth 8192 in
theorem e61 (c : Dev nD) : W5 m ρ c (Proc.devRef .tc main_v61) = shapeCast S1x10 (m ((c : Thread nD τ).loc main_arg7)) shapeCasts_S10_S1x10 := by
  show StableHlo.after hostOps2 (W4 m ρ c) (Proc.devRef .tc main_v61) = _
  after_results
  rw [W4_main_arg7 m ρ c]
  rfl

set_option maxHeartbeats 40000000 in
set_option maxRecDepth 8192 in
theorem e63 (c : Dev nD) : W5 m ρ c (Proc.devRef .tc main_v63)
    = transpose S64x64x10 [1, 0, 2] (shapeCast S64x64x10 (m ((c : Thread nD τ).loc main_arg6)) shapeCasts_S4096x10_S64x64x10) transposes_S64x64x10_S64x64x10_1_0_2 := by
  show StableHlo.after hostOps2 (W4 m ρ c) (Proc.devRef .tc main_v63) = _
  after_results
  rw [W4_main_arg6 m ρ c]
  rfl

end Cert.KernelIdeal.Hand

end
-- ==== Proof.Val.R2Spec.lean ====
/-
  The readout region's values as explicit functions: the carried scratch after each grid point as the running sum of
  the blocks' Gram matrices in point order, and the output row as the body's chain of operations on the final sum.
-/
import proofs.«426799_j87754771792351_4_alg».proof.Proof.KI.Reg2

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The scratch after point `n`: the first point adds its block's Gram matrix to the cleared scratch, every later point
    adds its own to what the point before left. -/
def accS (c : Dev nD) : (n : ℕ) → n < cfg2.N → Vec F S64x64 .f32
  | 0, h => k2_pay2 (iblk2 V c 0 ⟨0, h⟩) (k2_pay1 (F := F))
  | n + 1, h => k2_pay2 (iblk2 V c 0 ⟨n + 1, h⟩) (accS c n (Nat.lt_of_succ_lt h))

/-- The output row from the summed Gram matrix `v15`, the re-laid readout weights `v16` and the bias row `v405`: the
    sixty-four multiply-adds in the order the body makes them, the column sum, the bias, the softmax. -/
def readoutPay (v15 : Vec F S64x64 .f32) (v16 : Vec F S64x64x10 .f32) (v405 : Vec F S1x10 .f32) : FVec F S1x10 .f32 :=
  k2_pay22 v15 (k2_pay3 v16)
    (k2_pay19 v15 (k2_pay3 v16)
      (k2_pay16 v15 (k2_pay3 v16)
        (k2_pay13 v15 (k2_pay3 v16)
          (k2_pay10 v15 (k2_pay3 v16)
            (k2_pay7 v15 (k2_pay3 v16) (k2_pay4 v15 v16) (k2_pay5 v15) (k2_pay6 v16))
            (k2_pay8 v15) (k2_pay9 (k2_pay3 v16)))
          (k2_pay11 v15) (k2_pay12 (k2_pay3 v16)))
        (k2_pay14 v15) (k2_pay15 (k2_pay3 v16)))
      (k2_pay17 v15) (k2_pay18 (k2_pay3 v16)))
    (k2_pay20 v15) (k2_pay21 (k2_pay3 v16)) v405

end Cert.KernelIdeal.Hand

end
-- ==== Proof.Val.R2Pieces.lean ====
/-
  Region 2, the readout: the pieces each of the three cases' runs left in the carried scratch and in the output buffer,
  read back as the body's payload terms, generic in the float family. Every store goes through the whole buffer at zero
  offsets, so the last covering store's payload is what the buffer holds, and every load through the whole buffer reads
  its contents unchanged. By induction on the grid point the scratch then holds the running sum of the blocks' Gram
  matrices, and after the last point the output buffer holds the readout of the full sum.
-/
import proofs.«426799_j87754771792351_4_alg».proof.Proof.Val.R2Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Case A (the first point): the scratch is cleared, then holds the block's Gram matrix added to the cleared contents. -/
theorem sout_A (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : cond2_0 i) (hc1 : ¬cond2_1 i)
    (x0 : Vec F S10000x64 .f32) (x1 : Vec F S64x64x10 .f32) (x2 : Vec F S1x10 .f32) :
    sout2_A_0 c i arg1 harg1 arg2 harg2 arg3 harg3 arg4 harg4 arg5 harg5 hc0 hc1 x0 x1 x2 = k2_pay2 x0 (k2_pay1 (F := F)) := by
  unfold sout2_A_0
  rw [View.read_writes_eq_canon _ _ _ (scover2_A_0 c i arg1 harg1 arg2 harg2 arg3 harg3 arg4 harg4 arg5 harg5 hc0 hc1 x0 x1 x2)]
  unfold kernelRun2_A
  dsimp only
  sl_unfold_words
  rw [View.canon_cons_unit_zero (S := S64x64) hz2, View.readCov_unit_zero (S := S64x64) _ hz2]
  simp only [View.readAt_eq_ld, harg1.read_unread, View.ld_unit_zero (S := S10000x64) hz2]

/-- Case B (a middle point): the block's Gram matrix added to what the scratch held. -/
theorem sout_B (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : ¬cond2_1 i)
    (x0 : Vec F S10000x64 .f32) (x1 : Vec F S64x64x10 .f32) (x2 : Vec F S1x10 .f32) (xs0 : Vec F S64x64 .f32) :
    sout2_B_0 c i arg1 harg1 arg2 harg2 arg3 harg3 arg4 harg4 arg5 harg5 hc0 hc1 x0 x1 x2 xs0 = k2_pay2 x0 xs0 := by
  unfold sout2_B_0
  rw [View.read_writes_eq_canon _ _ _ (scover2_B_0 c i arg1 harg1 arg2 harg2 arg3 harg3 arg4 harg4 arg5 harg5 hc0 hc1 x0 x1 x2 xs0)]
  unfold kernelRun2_B
  dsimp only
  sl_unfold_words
  rw [View.canon_unit_zero hz2]
  simp only [View.readAt_eq_ld, harg1.read_unread, harg5.read_unread, View.ld_unit_zero (S := S10000x64) hz2, View.ld_unit_zero (S := S64x64) hz2]

/-- Case C (the last point), the scratch: the block's Gram matrix added to what the scratch held, as at a middle point. -/
theorem sout_C (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : cond2_1 i)
    (x0 : Vec F S10000x64 .f32) (x1 : Vec F S64x64x10 .f32) (x2 : Vec F S1x10 .f32) (xs0 : Vec F S64x64 .f32) :
    sout2_C_0 c i arg1 harg1 arg2 harg2 arg3 harg3 arg4 harg4 arg5 harg5 hc0 hc1 x0 x1 x2 xs0 = k2_pay2 x0 xs0 := by
  unfold sout2_C_0
  rw [View.read_writes_eq_canon _ _ _ (scover2_C_0 c i arg1 harg1 arg2 harg2 arg3 harg3 arg4 harg4 arg5 harg5 hc0 hc1 x0 x1 x2 xs0)]
  unfold kernelRun2_C
  dsimp only
  sl_unfold_words
  rw [View.canon_unit_zero hz2]
  simp only [View.readAt_eq_ld, harg1.read_unread, harg5.read_unread, View.ld_unit_zero (S := S10000x64) hz2, View.ld_unit_zero (S := S64x64) hz2]

/-- Case C (the last point), the output buffer: the readout of the updated scratch. The readout loads the scratch after
    this point's store into it, so it reads the stored sum; the weights and the bias row are read whole. -/
theorem out_C (c : Dev nD) (i : grid2.Coords) (arg1 : Memref sig .tc .vmem S10000x64 .f32) (harg1 : arg1.IsWhole) (arg2 : Memref sig .tc .vmem S64x64x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S64x64 .f32) (harg5 : arg5.IsWhole) (hc0 : ¬cond2_0 i) (hc1 : cond2_1 i)
    (x0 : Vec F S10000x64 .f32) (x1 : Vec F S64x64x10 .f32) (x2 : Vec F S1x10 .f32) (xs0 : Vec F S64x64 .f32) :
    out2_C_3 c i arg1 harg1 arg2 harg2 arg3 harg3 arg4 harg4 arg5 harg5 hc0 hc1 x0 x1 x2 xs0 = readoutPay (k2_pay2 x0 xs0) x1 x2 := by
  unfold out2_C_3
  rw [View.read_writes_eq_canon _ _ _ (cover2_C_3 c i arg1 harg1 arg2 harg2 arg3 harg3 arg4 harg4 arg5 harg5 hc0 hc1 x0 x1 x2 xs0)]
  unfold kernelRun2_C
  dsimp only
  sl_unfold_words
  rw [View.canon_unit_zero (S := S1x10) hz2]
  simp only [View.readAt_eq_ld, harg1.read_unread, harg2.read_unread, harg3.read_unread, harg5.read_unread,
    View.ld_unit_zero (S := S10000x64) hz2, View.ld_unit_zero (S := S64x64) hz2, View.ld_unit_zero (S := S64x64x10) hz3,
    View.ld_unit_zero (S := S1x10) hz2, View.readCov_unit_zero (S := S64x64) _ hz2]
  rfl

/-- The scratch after every point is the running sum. -/
theorem outsAt_acc (c : Dev nD) : ∀ (n : ℕ) (h : n < cfg2.N), (outsAt2 V c n h).2 = accS V c n h := by
  intro n
  induction n with
  | zero =>
    intro h
    have h0 : (⟨0, h⟩ : Fin cfg2.N).val % 10 = 0 := rfl
    have h1 : ¬(⟨0, h⟩ : Fin cfg2.N).val % 10 = 9 := by dsimp only; omega
    rw [outsAt2_A V c ⟨0, h⟩ h0 h1]
    dsimp only
    exact sout_A c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) scM2_0 (Memref.isWhole_whole _) ((hcond2_0 ⟨0, h⟩).mpr h0) (fun h' => h1 ((hcond2_1 ⟨0, h⟩).mp h')) (iblk2 V c 0 ⟨0, h⟩) (iblk2 V c 1 ⟨0, h⟩) (iblk2 V c 2 ⟨0, h⟩)
  | succ n ih =>
    intro h
    have hN : cfg2.N = 10 := N_2
    have h0 : ¬(⟨n + 1, h⟩ : Fin cfg2.N).val % 10 = 0 := by dsimp only; omega
    by_cases h1 : (⟨n + 1, h⟩ : Fin cfg2.N).val % 10 = 9
    · -- the last point
      rw [outsAt2_C V c ⟨n + 1, h⟩ h0 h1]
      dsimp only
      refine (sout_C c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) scM2_0 (Memref.isWhole_whole _) (fun h' => h0 ((hcond2_0 ⟨n + 1, h⟩).mp h')) ((hcond2_1 ⟨n + 1, h⟩).mpr h1) (iblk2 V c 0 ⟨n + 1, h⟩) (iblk2 V c 1 ⟨n + 1, h⟩) (iblk2 V c 2 ⟨n + 1, h⟩) (outsAt2 V c n (Nat.lt_of_succ_lt h)).2).trans ?_
      show k2_pay2 (iblk2 V c 0 ⟨n + 1, h⟩) (outsAt2 V c n (Nat.lt_of_succ_lt h)).2 = k2_pay2 (iblk2 V c 0 ⟨n + 1, h⟩) (accS V c n (Nat.lt_of_succ_lt h))
      rw [ih]
    · -- a middle point
      rw [outsAt2_B V c ⟨n + 1, h⟩ h0 h1]
      dsimp only
      refine (sout_B c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) scM2_0 (Memref.isWhole_whole _) (fun h' => h0 ((hcond2_0 ⟨n + 1, h⟩).mp h')) (fun h' => h1 ((hcond2_1 ⟨n + 1, h⟩).mp h')) (iblk2 V c 0 ⟨n + 1, h⟩) (iblk2 V c 1 ⟨n + 1, h⟩) (iblk2 V c 2 ⟨n + 1, h⟩) (outsAt2 V c n (Nat.lt_of_succ_lt h)).2).trans ?_
      show k2_pay2 (iblk2 V c 0 ⟨n + 1, h⟩) (outsAt2 V c n (Nat.lt_of_succ_lt h)).2 = k2_pay2 (iblk2 V c 0 ⟨n + 1, h⟩) (accS V c n (Nat.lt_of_succ_lt h))
      rw [ih]

/-- The output buffer after the last point is the readout of the full sum. -/
theorem outsAt_out (c : Dev nD) (h9 : 9 < cfg2.N) :
    (outsAt2 V c 9 h9).1 = readoutPay (accS V c 9 h9) (iblk2 V c 1 ⟨9, h9⟩) (iblk2 V c 2 ⟨9, h9⟩) := by
  have h0 : ¬(⟨9, h9⟩ : Fin cfg2.N).val % 10 = 0 := by dsimp only; omega
  have h1 : (⟨9, h9⟩ : Fin cfg2.N).val % 10 = 9 := rfl
  rw [outsAt2_C V c ⟨9, h9⟩ h0 h1]
  dsimp only
  refine (out_C c (grid2.coords ⟨9, h9⟩) (ms2_0 ⟨9, h9⟩) (hs2_0 ⟨9, h9⟩) (ms2_1 ⟨9, h9⟩) (hs2_1 ⟨9, h9⟩) (ms2_2 ⟨9, h9⟩) (hs2_2 ⟨9, h9⟩) (ms2_3 ⟨9, h9⟩) (hs2_3 ⟨9, h9⟩) scM2_0 (Memref.isWhole_whole _) (fun h' => h0 ((hcond2_0 ⟨9, h9⟩).mp h')) ((hcond2_1 ⟨9, h9⟩).mpr h1) (iblk2 V c 0 ⟨9, h9⟩) (iblk2 V c 1 ⟨9, h9⟩) (iblk2 V c 2 ⟨9, h9⟩) (outsAt2 V c 8 (Nat.lt_of_succ_lt h9)).2).trans ?_
  show readoutPay (k2_pay2 (iblk2 V c 0 ⟨9, h9⟩) (outsAt2 V c 8 (Nat.lt_of_succ_lt h9)).2) (iblk2 V c 1 ⟨9, h9⟩) (iblk2 V c 2 ⟨9, h9⟩)
    = readoutPay (k2_pay2 (iblk2 V c 0 ⟨9, h9⟩) (accS V c 8 (Nat.lt_of_succ_lt h9))) (iblk2 V c 1 ⟨9, h9⟩) (iblk2 V c 2 ⟨9, h9⟩)
  rw [outsAt_acc V c 8]

end Cert.KernelIdeal.Hand

end
-- ==== Proof.Val.R2Gram.lean ====
/-
  The readout region's carried scratch after its last grid point is the reference's Gram matrix, over the extended reals.
  Both sides are read at an index `(i, j)`: the reference's product is the sum over all hundred thousand rows `k` of
  `a[k, i] * a[k, j]`; each grid point adds to the scratch the same products summed over its own ten thousand rows, the
  first point adding to zero. By induction on the point the scratch after point `n` is the sum over the first
  `10000 * (n + 1)` rows, a sum over an initial range of the naturals splitting as the range before plus the block's
  shifted range; after the tenth point that is every row.
-/
import proofs.«426799_j87754771792351_4_alg».proof.Proof.Val.R2Spec
import proofs.«426799_j87754771792351_4_alg».proof.Proof.Val.RefOps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace R2Gram

/-! ## The reference's Gram matrix at an index -/

/-- The reference's product at `(i, j)`: the sum over all rows `k` of `a[k, i] * a[k, j]` (its left operand is the
    transpose of `a`, read at `(i, k)`). -/
theorem gram_apply (a : (⟨Cert.ReferenceIdeal.S100000x64, .f32⟩ : BufTy).Contents (Elt Ideal)) (i j : Fin 64) :
    Cert.ReferenceIdeal.Spec.gram (F := Ideal) a (ix2 i j) = ∑ k : Fin 100000, a (ix2 k i) * a (ix2 k j) := by
  unfold Cert.ReferenceIdeal.Spec.gram
  generalize hy0 : transpose Cert.ReferenceIdeal.S64x100000 [1, 0] a Cert.ReferenceIdeal.Gen.transposes_S100000x64_S64x100000_1_0 = y0
  simp only [Host.dotGeneral]
  rw [Ideal.dotGeneral_apply, ← Equiv.sum_comp (ValueIdx.contrEquiv1 Cert.ReferenceIdeal.dot_S64x100000_S100000x64_S64x64_1_0_0_1_n_n 100000 rfl rfl).symm]
  refine Finset.sum_congr rfl fun k _ => ?_
  have hk := ValueIdx.contrEquiv1_symm_val Cert.ReferenceIdeal.dot_S64x100000_S100000x64_S64x64_1_0_0_1_n_n 100000 rfl rfl k
  have el : Cert.ReferenceIdeal.dot_S64x100000_S100000x64_S64x64_1_0_0_1_n_n.lhsIdx (ix2 i j) ((ValueIdx.contrEquiv1 Cert.ReferenceIdeal.dot_S64x100000_S100000x64_S64x64_1_0_0_1_n_n 100000 rfl rfl).symm k) = ix2 i k := funext fun a => Fin.ext (by
    match a with
    | ⟨0, _⟩ => exact Cert.ReferenceIdeal.Read.lhs_main_v62_0 _ _
    | ⟨1, _⟩ => exact (Cert.ReferenceIdeal.Read.lhs_main_v62_1 _ _).trans hk)
  have er : Cert.ReferenceIdeal.dot_S64x100000_S100000x64_S64x64_1_0_0_1_n_n.rhsIdx (ix2 i j) ((ValueIdx.contrEquiv1 Cert.ReferenceIdeal.dot_S64x100000_S100000x64_S64x64_1_0_0_1_n_n 100000 rfl rfl).symm k) = ix2 k j := funext fun a => Fin.ext (by
    match a with
    | ⟨0, _⟩ => exact (Cert.ReferenceIdeal.Read.rhs_main_v62_0 _ _).trans hk
    | ⟨1, _⟩ => exact Cert.ReferenceIdeal.Read.rhs_main_v62_1 _ _)
  rw [el, er]
  subst hy0
  exact congrArg (· * a (ix2 k j)) (transpose_apply [1, 0] a Cert.ReferenceIdeal.Gen.transposes_S100000x64_S64x100000_1_0 (ix2 i k) (ix2 k i) (fun b => match b with
    | ⟨0, _⟩ => rfl
    | ⟨1, _⟩ => rfl))

/-! ## The body's two payloads at an index -/

theorem kdot_lhs_0 (i : S64x64.Idx) (q : Cert.KernelIdeal.dot_S10000x64_S10000x64_S64x64_0_0_1_1_n_n.contr.Idx) :
    (Cert.KernelIdeal.dot_S10000x64_S10000x64_S64x64_0_0_1_1_n_n.lhsIdx i q 0).val = (q ⟨0, by decide⟩).val :=
  Cert.KernelIdeal.dot_S10000x64_S10000x64_S64x64_0_0_1_1_n_n.lhsIdx_val_of_single rfl i q
theorem kdot_lhs_1 (i : S64x64.Idx) (q : Cert.KernelIdeal.dot_S10000x64_S10000x64_S64x64_0_0_1_1_n_n.contr.Idx) :
    (Cert.KernelIdeal.dot_S10000x64_S10000x64_S64x64_0_0_1_1_n_n.lhsIdx i q 1).val = (i 0).val := by
  unfold DotDims.lhsIdx
  rw [dif_neg (show ¬(1 : Fin S10000x64.rank) ∈ Cert.KernelIdeal.dot_S10000x64_S10000x64_S64x64_0_0_1_1_n_n.lhsBatch by decide), dif_pos (show (1 : Fin S10000x64.rank) ∈ Cert.KernelIdeal.dot_S10000x64_S10000x64_S64x64_0_0_1_1_n_n.lhsNonContracting by decide)]
  rfl
theorem kdot_rhs_0 (i : S64x64.Idx) (q : Cert.KernelIdeal.dot_S10000x64_S10000x64_S64x64_0_0_1_1_n_n.contr.Idx) :
    (Cert.KernelIdeal.dot_S10000x64_S10000x64_S64x64_0_0_1_1_n_n.rhsIdx i q 0).val = (q ⟨0, by decide⟩).val :=
  Cert.KernelIdeal.dot_S10000x64_S10000x64_S64x64_0_0_1_1_n_n.rhsIdx_val_of_single rfl i q
theorem kdot_rhs_1 (i : S64x64.Idx) (q : Cert.KernelIdeal.dot_S10000x64_S10000x64_S64x64_0_0_1_1_n_n.contr.Idx) :
    (Cert.KernelIdeal.dot_S10000x64_S10000x64_S64x64_0_0_1_1_n_n.rhsIdx i q 1).val = (i 1).val := by
  unfold DotDims.rhsIdx
  rw [dif_neg (show ¬(1 : Fin S10000x64.rank) ∈ Cert.KernelIdeal.dot_S10000x64_S10000x64_S64x64_0_0_1_1_n_n.rhsBatch by decide), dif_pos (show (1 : Fin S10000x64.rank) ∈ Cert.KernelIdeal.dot_S10000x64_S10000x64_S64x64_0_0_1_1_n_n.rhsNonContracting by decide)]
  rfl

/-- The block's product with itself, contracted over its rows, at `(i, j)`: the sum over the block's rows `r` of
    `x[r, i] * x[r, j]`. -/
theorem blockGram_apply (x : FVec Ideal S10000x64 .bf16) (i j : Fin 64) :
    matmul (F := Ideal) Cert.KernelIdeal.dot_S10000x64_S10000x64_S64x64_0_0_1_1_n_n none x x (constant (F := Ideal) S64x64 .f32 0x00000000#32) (ix2 i j)
      = ∑ r : Fin 10000, x (ix2 r i) * x (ix2 r j) := by
  simp only [matmul]
  rw [Ideal.matmul_constant_zero_apply, ← Equiv.sum_comp (ValueIdx.contrEquiv1 Cert.KernelIdeal.dot_S10000x64_S10000x64_S64x64_0_0_1_1_n_n 10000 rfl rfl).symm]
  refine Finset.sum_congr rfl fun k _ => ?_
  have hk := ValueIdx.contrEquiv1_symm_val Cert.KernelIdeal.dot_S10000x64_S10000x64_S64x64_0_0_1_1_n_n 10000 rfl rfl k
  have el : Cert.KernelIdeal.dot_S10000x64_S10000x64_S64x64_0_0_1_1_n_n.lhsIdx (ix2 i j) ((ValueIdx.contrEquiv1 Cert.KernelIdeal.dot_S10000x64_S10000x64_S64x64_0_0_1_1_n_n 10000 rfl rfl).symm k) = ix2 k i := funext fun a => Fin.ext (by
    match a with
    | ⟨0, _⟩ => exact (kdot_lhs_0 _ _).trans hk
    | ⟨1, _⟩ => exact kdot_lhs_1 _ _)
  have er : Cert.KernelIdeal.dot_S10000x64_S10000x64_S64x64_0_0_1_1_n_n.rhsIdx (ix2 i j) ((ValueIdx.contrEquiv1 Cert.KernelIdeal.dot_S10000x64_S10000x64_S64x64_0_0_1_1_n_n 10000 rfl rfl).symm k) = ix2 k j := funext fun a => Fin.ext (by
    match a with
    | ⟨0, _⟩ => exact (kdot_rhs_0 _ _).trans hk
    | ⟨1, _⟩ => exact kdot_rhs_1 _ _)
  rw [el, er]

/-- A later point's store at `(i, j)`: what the scratch held there plus the block's sum of products. -/
theorem pay2_apply (x : Vec Ideal S10000x64 .f32) (acc : Vec Ideal S64x64 .f32) (i j : Fin 64) :
    k2_pay2 (F := Ideal) x acc (ix2 i j) = acc (ix2 i j) + ∑ r : Fin 10000, x (ix2 r i) * x (ix2 r j) := by
  unfold k2_pay2
  simp only [shapeCast_self]
  rw [addf_apply, blockGram_apply]
  rfl

/-- The first point's clearing store is zero everywhere. -/
theorem pay1_apply (i j : Fin 64) : (k2_pay1 (F := Ideal)) (ix2 i j) = 0 := by
  unfold k2_pay1
  simp only [shapeCast_self]
  exact Ideal.ofBits_zero_f32

/-! ## A block read through the window -/

/-- The window's block index at point `t` is `(t, 0)`. -/
theorem win2_0_index : ∀ t : Fin grid2.N, win2_0.index t 0 = t.val ∧ win2_0.index t 1 = 0 := by decide +kernel

/-- Row `r` of the block at point `t` is row `10000 * t + r` of the array. -/
theorem iblk2_apply (c : Dev nD) (t : Fin cfg2.N) (r : Fin 10000) (i : Fin 64) (h : 10000 * t.val + r.val < 100000) :
    (iblk2 V c 0 t : Vec Ideal S10000x64 .f32) (ix2 r i)
      = (V c main_v60 : (⟨S100000x64, .f32⟩ : BufTy).Contents (Elt Ideal)) (ix2 ⟨10000 * t.val + r.val, h⟩ i) := by
  have hi := win2_0_index t
  unfold iblk2
  rw [View.read_apply]
  show V c main_v60 _ = V c main_v60 _
  congr 1
  funext a
  apply Fin.ext
  match a with
  | ⟨0, _⟩ => show win2_0.index t 0 * 10000 + 1 * r.val = 10000 * t.val + r.val; rw [hi.1]; omega
  | ⟨1, _⟩ => show win2_0.index t 1 * 64 + 1 * i.val = i.val; rw [hi.2]; omega

/-! ## The running sum in closed form -/

/-- The product of row `k`'s entries in columns `i` and `j`, for every natural number `k`: zero past the last row. -/
def rowProd (a : (⟨S100000x64, .f32⟩ : BufTy).Contents (Elt Ideal)) (i j : Fin 64) (k : ℕ) : EReal :=
  if h : k < 100000 then a (ix2 ⟨k, h⟩ i) * a (ix2 ⟨k, h⟩ j) else 0

theorem rowProd_of_lt (a : (⟨S100000x64, .f32⟩ : BufTy).Contents (Elt Ideal)) (i j : Fin 64) (k : ℕ) (h : k < 100000) :
    rowProd a i j k = a (ix2 ⟨k, h⟩ i) * a (ix2 ⟨k, h⟩ j) := dif_pos h

/-- The sum of products of the block `x` at point `t` is the sum of the array's row products over rows
    `10000 * t, …, 10000 * t + 9999`. -/
theorem blockSum_eq (c : Dev nD) (t : Fin cfg2.N) (i j : Fin 64) (x : Vec Ideal S10000x64 .f32) (hx : x = iblk2 V c 0 t) :
    ∑ r : Fin 10000, x (ix2 r i) * x (ix2 r j)
      = ∑ r ∈ Finset.range 10000, rowProd (V c main_v60) i j (10000 * t.val + r) := by
  subst hx
  have hN : t.val < 10 := lt_of_lt_of_eq t.isLt N_2
  rw [← Fin.sum_univ_eq_sum_range (fun r => rowProd (V c main_v60) i j (10000 * t.val + r)) 10000]
  refine Finset.sum_congr rfl fun r _ => ?_
  have h : 10000 * t.val + r.val < 100000 := by have := r.isLt; omega
  rw [iblk2_apply V c t r i h, iblk2_apply V c t r j h, rowProd_of_lt _ _ _ _ h]

/-- After point `n` the scratch holds, at `(i, j)`, the sum of the row products over the first `10000 * (n + 1)` rows:
    each point adds its block's rows to what the point before left, and the first adds to zero. -/
theorem accS_apply (c : Dev nD) : ∀ (n : ℕ) (h : n < cfg2.N) (i j : Fin 64),
    accS (F := Ideal) V c n h (ix2 i j) = ∑ k ∈ Finset.range (10000 * (n + 1)), rowProd (V c main_v60) i j k
  | 0, h, i, j => by
    show k2_pay2 (F := Ideal) (iblk2 V c 0 ⟨0, h⟩) (k2_pay1 (F := Ideal)) (ix2 i j) = _
    rw [pay2_apply, pay1_apply, zero_add, blockSum_eq V c ⟨0, h⟩ i j _ rfl]
    refine Finset.sum_congr rfl fun r _ => ?_
    show rowProd _ i j (10000 * 0 + r) = _
    rw [Nat.mul_zero, Nat.zero_add]
  | n + 1, h, i, j => by
    show k2_pay2 (F := Ideal) (iblk2 V c 0 ⟨n + 1, h⟩) (accS (F := Ideal) V c n (Nat.lt_of_succ_lt h)) (ix2 i j) = _
    rw [pay2_apply, accS_apply c n, blockSum_eq V c ⟨n + 1, h⟩ i j _ rfl, show 10000 * (n + 1 + 1) = 10000 * (n + 1) + 10000 from by omega,
      Finset.sum_range_add]

end R2Gram

open R2Gram

/-- Over the extended reals the running sum after the last point is the Gram matrix of the whole array: the ten
    blocks' row ranges partition the hundred thousand rows, and a sum may be regrouped. -/
theorem accS_last (c : Dev nD) (h9 : 9 < cfg2.N) :
    accS (F := Ideal) V c 9 h9 = Cert.ReferenceIdeal.Spec.gram (F := Ideal) (V c main_v60) := by
  funext ij
  obtain ⟨i, j, rfl⟩ : ∃ (i j : Fin 64), ij = ix2 i j := ⟨ij 0, ij 1, eq_ix2 ij⟩
  rw [accS_apply V c 9 h9 i j, gram_apply, Finset.sum_fin_eq_sum_range]
  rfl

end Cert.KernelIdeal.Hand

end
-- ==== Proof.Val.R2Readout.lean ====
/-
  The readout region's output row, read on the extended reals, is the reference's softmax of its logits.

  The body forms, for each row `i` of the summed Gram matrix `h` and each class `k`, the left-nested sum over the
  columns `j` of `h[i, j] · w[j, i, k]`, sixty-four multiply-adds spread over seven payloads; sums these over the rows;
  adds the bias; and takes the softmax of the row of ten logits. The weights `w` are the readout weights re-laid,
  `w[j, i, k] = x6[64 i + j, k]`, so the double sum over `(i, j)` is the reference's one sum over the 4096 positions of
  the flattened matrix: addition on the extended reals is commutative and associative, and nothing else is used. The two
  softmaxes are the same operations on equal logits: the reference's extra maximum with minus infinity changes nothing,
  since its fold already starts there, and its sum from zero is the sum.
-/
import proofs.«426799_j87754771792351_4_alg».proof.Proof.Val.R2Spec
import proofs.«426799_j87754771792351_4_alg».proof.Proof.Val.RefOps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand.R2Readout

open Idealize.ShloMosaic Idealize.ShloMosaic.ValueIdx
open scoped BigOperators

/-- The row maximum of a row of ten logits, folded from minus infinity's word. -/
def rowMaxE (o : (⟨2, ![1, 10]⟩ : Shape).Idx → EReal) : EReal :=
  (Finset.univ : Finset (Fin 10)).fold max (Ideal.ofBits .f32 0xFF800000#32) fun c => o (ix2 (0 : Fin 1) c)

/-- The softmax of a row of ten logits at class `k`, on the extended reals. -/
def softE (o : (⟨2, ![1, 10]⟩ : Shape).Idx → EReal) (k : Fin 10) : EReal :=
  Ideal.div (Ideal.exp (o (ix2 (0 : Fin 1) k) - rowMaxE o)) (∑ c : Fin 10, Ideal.exp (o (ix2 (0 : Fin 1) c) - rowMaxE o))

end Cert.KernelIdeal.Hand.R2Readout

namespace Cert.ReferenceIdeal.Spec.R2Readout

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open Cert.KernelIdeal.Hand.R2Readout (rowMaxE softE)
open scoped BigOperators

/-- A sum over the 4096 flat positions is the double sum over rows and columns of the 64 × 64 matrix. -/
theorem sum_fin4096 (f : Fin 4096 → EReal) :
    ∑ q, f q = ∑ i : Fin 64, ∑ j : Fin 64, f ⟨i.val * 64 + j.val, by have := i.isLt; have := j.isLt; omega⟩ := by
  have e := Equiv.sum_comp (finProdFinEquiv (m := 64) (n := 64)) (f : Fin (64 * 64) → EReal)
  rw [Fintype.sum_prod_type] at e
  refine e.symm.trans (Finset.sum_congr rfl fun i _ => Finset.sum_congr rfl fun j _ => congrArg f (Fin.ext ?_))
  show j.val + 64 * i.val = i.val * 64 + j.val
  omega

/-- The host's product of the flattened matrix with the readout weights, read at an index: the sum over the 4096 flat
    positions of the products. -/
theorem dot_apply (y : FVec Ideal S1x4096 .f32) (x6 : FVec Ideal S4096x10 .f32) (i : S1x10.Idx) :
    Host.dotGeneral dot_S1x4096_S4096x10_S1x10_1_0_0_1_n_n none y x6 i
      = ∑ q : Fin 4096, y (lidx_main_v64 i q) * x6 (ridx_main_v64 i q) := by
  simp only [Host.dotGeneral]
  rw [Ideal.dotGeneral_apply, ← Equiv.sum_comp (ValueIdx.contrEquiv1 dot_S1x4096_S4096x10_S1x10_1_0_0_1_n_n 4096 rfl rfl).symm]
  refine Finset.sum_congr rfl fun q _ => ?_
  have hq := ValueIdx.contrEquiv1_symm_val dot_S1x4096_S4096x10_S1x10_1_0_0_1_n_n 4096 rfl rfl q
  have el : dot_S1x4096_S4096x10_S1x10_1_0_0_1_n_n.lhsIdx i
      ((ValueIdx.contrEquiv1 dot_S1x4096_S4096x10_S1x10_1_0_0_1_n_n 4096 rfl rfl).symm q) = lidx_main_v64 i q :=
    funext fun a => Fin.ext (by
      match a with
      | ⟨0, _⟩ => exact lhs_main_v64_0 _ _
      | ⟨1, _⟩ => exact (lhs_main_v64_1 _ _).trans hq)
  have er : dot_S1x4096_S4096x10_S1x10_1_0_0_1_n_n.rhsIdx i
      ((ValueIdx.contrEquiv1 dot_S1x4096_S4096x10_S1x10_1_0_0_1_n_n 4096 rfl rfl).symm q) = ridx_main_v64 i q :=
    funext fun a => Fin.ext (by
      match a with
      | ⟨0, _⟩ => exact (rhs_main_v64_0 _ _).trans hq
      | ⟨1, _⟩ => exact rhs_main_v64_1 _ _)
  rw [el, er]

/-- The reference's logits read at class `k`: the double sum over the matrix of entry times weight, plus the bias. -/
theorem logits_apply (h : FVec Ideal S64x64 .f32) (x6 : FVec Ideal S4096x10 .f32) (x7 : FVec Ideal S10 .f32) (k : Fin 10) :
    logits (F := Ideal) h x6 x7 (ix2 (0 : Fin 1) k)
      = (∑ i : Fin 64, ∑ j : Fin 64,
          h (ix2 i j) * x6 (ix2 (⟨i.val * 64 + j.val, by have := i.isLt; have := j.isLt; omega⟩ : Fin 4096) k)) + x7 (ix1 k) := by
  unfold logits
  rw [addf_apply, dot_apply, sum_fin4096]
  refine congrArg₂ (· + ·) (Finset.sum_congr rfl fun i _ => Finset.sum_congr rfl fun j _ => congrArg₂ (· * ·) ?_ ?_) ?_
  · refine shapeCast_apply h shapeCasts_S64x64_S1x4096 _ (ix2 i j) ?_
    rw [Shape.rowMajor_val_two, Shape.rowMajor_val_two]
    show i.val * 64 + j.val = 0 * 4096 + (i.val * 64 + j.val)
    omega
  · exact congrArg x6 (funext fun a => Fin.ext (by
      match a with
      | ⟨0, _⟩ => rfl
      | ⟨1, _⟩ => rfl))
  · exact broadcastInDim_apply _ bcast_S10_S1x10_1 x7 _ (ix1 k) fun a => by
      match a with
      | ⟨0, _⟩ => show k.val = if (10 : ℕ) = 1 then 0 else k.val; rw [if_neg (by decide)]

/-- A one-element row broadcast to a one-by-one and then along the classes reads its one element. -/
theorem bcast11_apply (x : FVec Ideal S1 .f32) (k : Fin 10) :
    broadcastInDim S1x10 ![0, 1] bcast_S1x1_S1x10_0_1 (broadcastInDim S1x1 ![0] bcast_S1_S1x1_0 x) (ix2 (0 : Fin 1) k)
      = x (ix1 (0 : Fin 1)) := by
  refine (broadcastInDim_apply _ bcast_S1x1_S1x10_0_1 _ _ (ix2 (0 : Fin 1) (0 : Fin 1)) fun a => ?_).trans ?_
  · match a with
    | ⟨0, _⟩ => show 0 = if (1 : ℕ) = 1 then 0 else 0; rw [if_pos rfl]
    | ⟨1, _⟩ => show 0 = if (1 : ℕ) = 1 then 0 else k.val; rw [if_pos rfl]
  · exact broadcastInDim_apply _ bcast_S1_S1x1_0 x _ (ix1 (0 : Fin 1)) fun a => by
      match a with
      | ⟨0, _⟩ => show 0 = if (1 : ℕ) = 1 then 0 else 0; rw [if_pos rfl]

/-- The reference's row maximum read at class `k`: the maximum with minus infinity's word changes nothing, the fold
    already starts there. -/
theorem rowMax_apply (o : FVec Ideal S1x10 .f32) (k : Fin 10) : rowMax (F := Ideal) o (ix2 (0 : Fin 1) k) = rowMaxE o := by
  unfold rowMax
  rw [bcast11_apply, maximumf_apply]
  have hr : Host.reduce FloatOps.maximumf o (constant (F := Ideal) S_ .f32 0xFF800000#32) reducesTo_S1x10_S1_d1 h_S_ (ix1 (0 : Fin 1))
      = rowMaxE o := by
    refine (Host.reduce_eq_fold_single (FloatOps.maximumf (F := Ideal) (φ := .f32)) o _ reducesTo_S1x10_S1_d1 (by decide) h_S_
      (ix1 (0 : Fin 1))).trans ?_
    unfold rowMaxE
    refine congrArg (Finset.fold max _ · _) (funext fun c => congrArg o (funext fun a => Fin.ext (by
      match a with
      | ⟨0, _⟩ => rfl
      | ⟨1, _⟩ => rfl)))
  rw [hr]
  refine max_eq_right ?_
  unfold rowMaxE
  exact (Finset.le_fold_max _).mpr (Or.inl (le_of_eq (broadcastInDim_apply _ bcast_S_S1 _ _ ix0 fun a => a.elim0)))

/-- The reference's shifted exponentials read at class `c`. -/
theorem expShift_apply (o : FVec Ideal S1x10 .f32) (c : Fin 10) :
    expShift (F := Ideal) o (ix2 (0 : Fin 1) c) = Ideal.exp (o (ix2 (0 : Fin 1) c) - rowMaxE o) := by
  unfold expShift
  show Ideal.exp (o (ix2 (0 : Fin 1) c) - rowMax (F := Ideal) o (ix2 (0 : Fin 1) c)) = _
  rw [rowMax_apply]

/-- The reference's softmax read at class `k`. -/
theorem softmax_apply (o : FVec Ideal S1x10 .f32) (k : Fin 10) : softmax (F := Ideal) o (ix2 (0 : Fin 1) k) = softE o k := by
  unfold softmax softE
  show Ideal.div (expShift (F := Ideal) o (ix2 (0 : Fin 1) k)) _ = _
  rw [expShift_apply, bcast11_apply]
  refine congrArg (Ideal.div _) ?_
  refine (Ideal.hostReduceAdd_single reducesTo_S1x10_S1_d1 (by decide) (expShift (F := Ideal) o) _ (ix1 (0 : Fin 1))).trans ?_
  refine (congrArg (· + _) Ideal.ofBits_zero_f32).trans ((zero_add _).trans ?_)
  exact Finset.sum_congr rfl fun c _ => (congrArg (expShift (F := Ideal) o) (funext fun a => Fin.ext (by
    match a with
    | ⟨0, _⟩ => rfl
    | ⟨1, _⟩ => rfl))).trans (expShift_apply o c)

end Cert.ReferenceIdeal.Spec.R2Readout

namespace Cert.KernelIdeal.Hand.R2Readout

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-- One product of the readout: the matrix entry in row `i`, column `j` times the re-laid weight in slab `j`, row
    `i`, class `k`; zero past the last column, so that a sum over a range of naturals can carry it. -/
def rterm (v15 : FVec Ideal S64x64 .f32) (v17 : FVec Ideal S64x64x10 .f32) (i : Fin 64) (k : Fin 10) (j : ℕ) : EReal :=
  if hj : j < 64 then v15 (ix2 i ⟨j, hj⟩) * v17 (ix3 ⟨j, hj⟩ i k) else 0

/-- Column `j` of the matrix, broadcast along the classes, read at `(i, k)`: the entry `(i, j)`. -/
theorem col_apply (v15 : FVec Ideal S64x64 .f32) (j : ℕ) (hj : j < 64) (hs : S64x64.Slices ![0, j] S64x1)
    (i : Fin 64) (k : Fin 10) :
    broadcastTo S64x10 (extractStridedSlice S64x1 ![0, j] v15 hs) broadcasts_S64x1_S64x10 (ix2 i k)
      = v15 (ix2 i ⟨j, hj⟩) := by
  refine (broadcastTo_apply _ broadcasts_S64x1_S64x10 (ix2 i k) (ix2 i (0 : Fin 1)) fun a => ?_).trans ?_
  · match a with
    | ⟨0, _⟩ => show i.val = if (64 : ℕ) = 1 then 0 else i.val; rw [if_neg (by decide)]
    | ⟨1, _⟩ => show 0 = if (1 : ℕ) = 1 then 0 else k.val; rw [if_pos rfl]
  · exact slice2_axis1_apply j v15 hs i (0 : Fin 1) ⟨j, hj⟩ rfl

/-- Slab `j` of the re-laid weights, its unit axis dropped, read at `(i, k)`: the weight `(j, i, k)`. -/
theorem slab_apply (v17 : FVec Ideal S64x64x10 .f32) (j : ℕ) (hj : j < 64) (hw : S64x64x10.Slices ![j, 0, 0] S1x64x10)
    (i : Fin 64) (k : Fin 10) :
    shapeCast S64x10 (extractStridedSlice S1x64x10 ![j, 0, 0] v17 hw) shapeCasts_S1x64x10_S64x10 (ix2 i k)
      = v17 (ix3 ⟨j, hj⟩ i k) := by
  refine (shapeCast_1ab_ab_apply _ shapeCasts_S1x64x10_S64x10 i k).trans ?_
  exact extractStridedSlice_apply _ v17 hw _ _ fun a => by
    match a with
    | ⟨0, _⟩ => rfl
    | ⟨1, _⟩ => exact (Nat.zero_add _).symm
    | ⟨2, _⟩ => exact (Nat.zero_add _).symm

/-- One multiply of the unrolled readout, read at `(i, k)`: the product `rterm` names. -/
theorem step_apply (v15 : FVec Ideal S64x64 .f32) (v17 : FVec Ideal S64x64x10 .f32) (j : ℕ)
    (hs : S64x64.Slices ![0, j] S64x1) (hw : S64x64x10.Slices ![j, 0, 0] S1x64x10) (i : Fin 64) (k : Fin 10) :
    mulf (broadcastTo S64x10 (extractStridedSlice S64x1 ![0, j] v15 hs) broadcasts_S64x1_S64x10)
        (shapeCast S64x10 (extractStridedSlice S1x64x10 ![j, 0, 0] v17 hw) shapeCasts_S1x64x10_S64x10) (ix2 i k)
      = rterm v15 v17 i k j := by
  have hj : j < 64 := by have := hs.2 1; exact Nat.lt_of_succ_le this
  rw [mulf_apply, col_apply v15 j hj hs i k, slab_apply v17 j hj hw i k]
  unfold rterm
  rw [dif_pos hj]

/-- A cast of the weights to their own shape is the weights. -/
theorem pay3_eq (v16 : Vec Ideal S64x64x10 .f32) : k2_pay3 v16 = v16 := by
  unfold k2_pay3; exact shapeCast_self _ _

/-- The zero word, as a scalar, is the extended real zero. -/
theorem scalar_zero : (Scalar.ofBits .f32 0x00000000#32 : Ideal .f32) = 0 := Ideal.ofBits_zero_f32

/-- The first eight multiply-adds, read at `(i, k)`: the sum of the first eight products. -/
theorem pay4_apply (v15 : Vec Ideal S64x64 .f32) (v16 : Vec Ideal S64x64x10 .f32) (i : Fin 64) (k : Fin 10) :
    k2_pay4 v15 v16 (ix2 i k) = ∑ j ∈ Finset.range 8, rterm v15 v16 i k j := by
  unfold k2_pay4
  simp only [pay3_eq, addf_apply, step_apply, broadcast_apply, scalar_zero, Finset.sum_range_succ, Finset.sum_range_zero]

/-- The next ten multiply-adds, read at `(i, k)`: from the sum of the first 8 products to the sum of the first 18. -/
theorem pay7_apply (v15 : Vec Ideal S64x64 .f32) (v16 : Vec Ideal S64x64x10 .f32) (acc : FVec Ideal S64x10 .f32)
    (i : Fin 64) (k : Fin 10) (hacc : acc (ix2 i k) = ∑ j ∈ Finset.range 8, rterm v15 v16 i k j) :
    k2_pay7 v15 (k2_pay3 v16) acc (k2_pay5 v15) (k2_pay6 v16) (ix2 i k)
      = ∑ j ∈ Finset.range 18, rterm v15 v16 i k j := by
  unfold k2_pay7 k2_pay5 k2_pay6
  simp only [pay3_eq, addf_apply, step_apply, hacc, Finset.sum_range_succ, Finset.sum_range_zero]

/-- The next ten multiply-adds, read at `(i, k)`: from the sum of the first 18 products to the sum of the first 28. -/
theorem pay10_apply (v15 : Vec Ideal S64x64 .f32) (v16 : Vec Ideal S64x64x10 .f32) (acc : FVec Ideal S64x10 .f32)
    (i : Fin 64) (k : Fin 10) (hacc : acc (ix2 i k) = ∑ j ∈ Finset.range 18, rterm v15 v16 i k j) :
    k2_pay10 v15 (k2_pay3 v16) acc (k2_pay8 v15) (k2_pay9 (k2_pay3 v16)) (ix2 i k)
      = ∑ j ∈ Finset.range 28, rterm v15 v16 i k j := by
  unfold k2_pay10 k2_pay8 k2_pay9
  simp only [pay3_eq, addf_apply, step_apply, hacc, Finset.sum_range_succ, Finset.sum_range_zero]

/-- The next ten multiply-adds, read at `(i, k)`: from the sum of the first 28 products to the sum of the first 38. -/
theorem pay13_apply (v15 : Vec Ideal S64x64 .f32) (v16 : Vec Ideal S64x64x10 .f32) (acc : FVec Ideal S64x10 .f32)
    (i : Fin 64) (k : Fin 10) (hacc : acc (ix2 i k) = ∑ j ∈ Finset.range 28, rterm v15 v16 i k j) :
    k2_pay13 v15 (k2_pay3 v16) acc (k2_pay11 v15) (k2_pay12 (k2_pay3 v16)) (ix2 i k)
      = ∑ j ∈ Finset.range 38, rterm v15 v16 i k j := by
  unfold k2_pay13 k2_pay11 k2_pay12
  simp only [pay3_eq, addf_apply, step_apply, hacc, Finset.sum_range_succ, Finset.sum_range_zero]

/-- The next ten multiply-adds, read at `(i, k)`: from the sum of the first 38 products to the sum of the first 48. -/
theorem pay16_apply (v15 : Vec Ideal S64x64 .f32) (v16 : Vec Ideal S64x64x10 .f32) (acc : FVec Ideal S64x10 .f32)
    (i : Fin 64) (k : Fin 10) (hacc : acc (ix2 i k) = ∑ j ∈ Finset.range 38, rterm v15 v16 i k j) :
    k2_pay16 v15 (k2_pay3 v16) acc (k2_pay14 v15) (k2_pay15 (k2_pay3 v16)) (ix2 i k)
      = ∑ j ∈ Finset.range 48, rterm v15 v16 i k j := by
  unfold k2_pay16 k2_pay14 k2_pay15
  simp only [pay3_eq, addf_apply, step_apply, hacc, Finset.sum_range_succ, Finset.sum_range_zero]

/-- The next ten multiply-adds, read at `(i, k)`: from the sum of the first 48 products to the sum of the first 58. -/
theorem pay19_apply (v15 : Vec Ideal S64x64 .f32) (v16 : Vec Ideal S64x64x10 .f32) (acc : FVec Ideal S64x10 .f32)
    (i : Fin 64) (k : Fin 10) (hacc : acc (ix2 i k) = ∑ j ∈ Finset.range 48, rterm v15 v16 i k j) :
    k2_pay19 v15 (k2_pay3 v16) acc (k2_pay17 v15) (k2_pay18 (k2_pay3 v16)) (ix2 i k)
      = ∑ j ∈ Finset.range 58, rterm v15 v16 i k j := by
  unfold k2_pay19 k2_pay17 k2_pay18
  simp only [pay3_eq, addf_apply, step_apply, hacc, Finset.sum_range_succ, Finset.sum_range_zero]

/-- The last six multiply-adds, as a function of what they read. -/
def pay22T (v15 : Vec Ideal S64x64 .f32) (v17 : FVec Ideal S64x64x10 .f32) (v366 : FVec Ideal S64x10 .f32)
    (v367 : FVec Ideal S64x1 .f32) (v368 : FVec Ideal S1x64x10 .f32) : FVec Ideal S64x10 .f32 :=
  have v372 : FVec Ideal S64x10 .f32 :=
    addf v366 (mulf (broadcastTo S64x10 v367 broadcasts_S64x1_S64x10) (shapeCast S64x10 v368 shapeCasts_S1x64x10_S64x10))
  have v378 : FVec Ideal S64x10 .f32 :=
    addf v372 (mulf (broadcastTo S64x10 (extractStridedSlice S64x1 ![0, 59] v15 slices_S64x64_o0_59_S64x1) broadcasts_S64x1_S64x10)
      (shapeCast S64x10 (extractStridedSlice S1x64x10 ![59, 0, 0] v17 slices_S64x64x10_o59_0_0_S1x64x10) shapeCasts_S1x64x10_S64x10))
  have v384 : FVec Ideal S64x10 .f32 :=
    addf v378 (mulf (broadcastTo S64x10 (extractStridedSlice S64x1 ![0, 60] v15 slices_S64x64_o0_60_S64x1) broadcasts_S64x1_S64x10)
      (shapeCast S64x10 (extractStridedSlice S1x64x10 ![60, 0, 0] v17 slices_S64x64x10_o60_0_0_S1x64x10) shapeCasts_S1x64x10_S64x10))
  have v390 : FVec Ideal S64x10 .f32 :=
    addf v384 (mulf (broadcastTo S64x10 (extractStridedSlice S64x1 ![0, 61] v15 slices_S64x64_o0_61_S64x1) broadcasts_S64x1_S64x10)
      (shapeCast S64x10 (extractStridedSlice S1x64x10 ![61, 0, 0] v17 slices_S64x64x10_o61_0_0_S1x64x10) shapeCasts_S1x64x10_S64x10))
  have v396 : FVec Ideal S64x10 .f32 :=
    addf v390 (mulf (broadcastTo S64x10 (extractStridedSlice S64x1 ![0, 62] v15 slices_S64x64_o0_62_S64x1) broadcasts_S64x1_S64x10)
      (shapeCast S64x10 (extractStridedSlice S1x64x10 ![62, 0, 0] v17 slices_S64x64x10_o62_0_0_S1x64x10) shapeCasts_S1x64x10_S64x10))
  addf v396 (mulf (broadcastTo S64x10 (extractStridedSlice S64x1 ![0, 63] v15 slices_S64x64_o0_63_S64x1) broadcasts_S64x1_S64x10)
    (shapeCast S64x10 (extractStridedSlice S1x64x10 ![63, 0, 0] v17 slices_S64x64x10_o63_0_0_S1x64x10) shapeCasts_S1x64x10_S64x10))

/-- The body's logits from the sixty-four-term sums `t` and the bias row: the column sum of `t` plus the bias. -/
def kLogits (t : FVec Ideal S64x10 .f32) (v405 : Vec Ideal S1x10 .f32) : FVec Ideal S1x10 .f32 :=
  addf (shapeCast S1x10 (multiReduction .add [0] S10 t 0x00000000#32 reduces_S64x10_S10 (.inl rfl) rfl) shapeCasts_S10_S1x10)
    (shapeCast S1x10 v405 shapeCasts_S1x10_S1x10)

/-- The body's shifted exponentials of a row of logits: the row maximum from minus infinity, subtracted, and the
    exponentials of the differences. -/
def kShift (v407 : FVec Ideal S1x10 .f32) : FVec Ideal S1x10 .f32 :=
  have v408 : FVec Ideal S1 .f32 := multiReduction .maximumf [1] S1 v407 0xFF800000#32 reduces_S1x10_S1 (.inl rfl) rfl
  have v409 : FVec Ideal S1x1 .f32 := shapeCast S1x1 v408 shapeCasts_S1_S1x1
  have v410 : FVec Ideal S1x10 .f32 := broadcastTo S1x10 v409 broadcasts_S1x1_S1x10
  exp (subf v407 v410)

/-- The body's softmax of a row of logits: the shifted exponentials over their sum from zero. -/
def kSoft (v407 : FVec Ideal S1x10 .f32) : FVec Ideal S1x10 .f32 :=
  have v412 : FVec Ideal S1x10 .f32 := kShift v407
  have v413 : FVec Ideal S1 .f32 := multiReduction .add [1] S1 v412 0x00000000#32 reduces_S1x10_S1 (.inl rfl) rfl
  have v414 : FVec Ideal S1x1 .f32 := shapeCast S1x1 v413 shapeCasts_S1_S1x1
  have v415 : FVec Ideal S1x10 .f32 := broadcastTo S1x10 v414 broadcasts_S1x1_S1x10
  divf v412 v415

/-- The last payload is the softmax of the logits of its six multiply-adds: the same operations, regrouped. -/
theorem pay22_eq (v15 : Vec Ideal S64x64 .f32) (v17 : FVec Ideal S64x64x10 .f32) (v366 : FVec Ideal S64x10 .f32)
    (v367 : FVec Ideal S64x1 .f32) (v368 : FVec Ideal S1x64x10 .f32) (v405 : Vec Ideal S1x10 .f32) :
    k2_pay22 v15 v17 v366 v367 v368 v405 = kSoft (kLogits (pay22T v15 v17 v366 v367 v368) v405) := rfl

/-- The last six multiply-adds, read at `(i, k)`: from the sum of the first fifty-eight products to all sixty-four. -/
theorem pay22T_apply (v15 : Vec Ideal S64x64 .f32) (v16 : Vec Ideal S64x64x10 .f32) (acc : FVec Ideal S64x10 .f32)
    (i : Fin 64) (k : Fin 10) (hacc : acc (ix2 i k) = ∑ j ∈ Finset.range 58, rterm v15 v16 i k j) :
    pay22T v15 (k2_pay3 v16) acc (k2_pay20 v15) (k2_pay21 (k2_pay3 v16)) (ix2 i k)
      = ∑ j ∈ Finset.range 64, rterm v15 v16 i k j := by
  unfold pay22T k2_pay20 k2_pay21
  simp only [pay3_eq, addf_apply, step_apply, hacc, Finset.sum_range_succ, Finset.sum_range_zero]

/-- The sixty-four multiply-adds the body spreads over seven payloads, read at `(i, k)`: the sum of all the products. -/
theorem chain_apply (v15 : Vec Ideal S64x64 .f32) (v16 : Vec Ideal S64x64x10 .f32) (i : Fin 64) (k : Fin 10) :
    pay22T v15 (k2_pay3 v16)
        (k2_pay19 v15 (k2_pay3 v16)
          (k2_pay16 v15 (k2_pay3 v16)
            (k2_pay13 v15 (k2_pay3 v16)
              (k2_pay10 v15 (k2_pay3 v16)
                (k2_pay7 v15 (k2_pay3 v16) (k2_pay4 v15 v16) (k2_pay5 v15) (k2_pay6 v16))
                (k2_pay8 v15) (k2_pay9 (k2_pay3 v16)))
              (k2_pay11 v15) (k2_pay12 (k2_pay3 v16)))
            (k2_pay14 v15) (k2_pay15 (k2_pay3 v16)))
          (k2_pay17 v15) (k2_pay18 (k2_pay3 v16)))
        (k2_pay20 v15) (k2_pay21 (k2_pay3 v16)) (ix2 i k)
      = ∑ j ∈ Finset.range 64, rterm v15 v16 i k j :=
  pay22T_apply v15 v16 _ i k (pay19_apply v15 v16 _ i k (pay16_apply v15 v16 _ i k (pay13_apply v15 v16 _ i k
    (pay10_apply v15 v16 _ i k (pay7_apply v15 v16 _ i k (pay4_apply v15 v16 i k))))))

/-- The body's logits read at class `k`: the column sum plus the bias. -/
theorem kLogits_apply (t : FVec Ideal S64x10 .f32) (v405 : Vec Ideal S1x10 .f32) (k : Fin 10) :
    kLogits t v405 (ix2 (0 : Fin 1) k) = (∑ i : Fin 64, t (ix2 i k)) + v405 (ix2 (0 : Fin 1) k) := by
  unfold kLogits
  rw [addf_apply, shapeCast_self, shapeCast_a_1a_apply]
  refine congrArg (· + _) ?_
  refine (Ideal.multiReduction_add_single t _ reduces_S64x10_S10 _ _ (ix1 k)).trans ?_
  exact Finset.sum_congr rfl fun i _ => congrArg t (funext fun a => Fin.ext (by
    match a with
    | ⟨0, _⟩ => rfl
    | ⟨1, _⟩ => rfl))

/-- A one-element row broadcast along the classes reads its one element. -/
theorem bcast11_apply (x : FVec Ideal S1 .f32) (k : Fin 10) :
    broadcastTo S1x10 (shapeCast S1x1 x shapeCasts_S1_S1x1) broadcasts_S1x1_S1x10 (ix2 (0 : Fin 1) k) = x (ix1 (0 : Fin 1)) := by
  refine (broadcastTo_apply _ broadcasts_S1x1_S1x10 (ix2 (0 : Fin 1) k) (ix2 (0 : Fin 1) (0 : Fin 1)) fun a => ?_).trans ?_
  · match a with
    | ⟨0, _⟩ => show 0 = if (1 : ℕ) = 1 then 0 else 0; rw [if_pos rfl]
    | ⟨1, _⟩ => show 0 = if (1 : ℕ) = 1 then 0 else k.val; rw [if_pos rfl]
  · exact shapeCast_a_1a_apply x shapeCasts_S1_S1x1 (0 : Fin 1) (0 : Fin 1)

/-- The body's row maximum, broadcast along the classes, read at class `k`. -/
theorem kmax_apply (o : FVec Ideal S1x10 .f32) (k : Fin 10) (hφ : FKind.Formats .f32)
    (hacc : (0xFF800000#32 : BitVec 32) = 0xFF800000#32) :
    broadcastTo S1x10 (shapeCast S1x1 (multiReduction .maximumf [1] S1 o 0xFF800000#32 reduces_S1x10_S1 hφ hacc)
      shapeCasts_S1_S1x1) broadcasts_S1x1_S1x10 (ix2 (0 : Fin 1) k) = rowMaxE o := by
  rw [bcast11_apply]
  refine (Ideal.multiReduction_maximumf_single o _ reduces_S1x10_S1 hφ hacc (ix1 (0 : Fin 1))).trans ?_
  unfold rowMaxE
  refine congrArg (Finset.fold max _ · _) (funext fun c => congrArg o (funext fun a => Fin.ext (by
    match a with
    | ⟨0, _⟩ => rfl
    | ⟨1, _⟩ => rfl)))

/-- The body's sum of a row, broadcast along the classes, read at class `k`. -/
theorem ksum_apply (e : FVec Ideal S1x10 .f32) (k : Fin 10) (hφ : FKind.Formats .f32)
    (hacc : (0x00000000#32 : BitVec 32) = 0x00000000#32) :
    broadcastTo S1x10 (shapeCast S1x1 (multiReduction .add [1] S1 e 0x00000000#32 reduces_S1x10_S1 hφ hacc)
      shapeCasts_S1_S1x1) broadcasts_S1x1_S1x10 (ix2 (0 : Fin 1) k) = ∑ c : Fin 10, e (ix2 (0 : Fin 1) c) := by
  rw [bcast11_apply]
  refine (Ideal.multiReduction_add_single e _ reduces_S1x10_S1 hφ hacc (ix1 (0 : Fin 1))).trans ?_
  exact Finset.sum_congr rfl fun c _ => congrArg e (funext fun a => Fin.ext (by
    match a with
    | ⟨0, _⟩ => rfl
    | ⟨1, _⟩ => rfl))

/-- An exponential of a row read at an index. -/
theorem vexp_apply {s : Shape} (x : FVec Ideal s .f32) (i : s.Idx) : exp x i = Ideal.exp (x i) := rfl

/-- The body's shifted exponentials read at class `c`. -/
theorem kShift_apply (o : FVec Ideal S1x10 .f32) (c : Fin 10) :
    kShift o (ix2 (0 : Fin 1) c) = Ideal.exp (o (ix2 (0 : Fin 1) c) - rowMaxE o) := by
  unfold kShift
  rw [vexp_apply, subf_apply, kmax_apply]

/-- The body's softmax read at class `k`. -/
theorem kSoft_apply (o : FVec Ideal S1x10 .f32) (k : Fin 10) : kSoft o (ix2 (0 : Fin 1) k) = softE o k := by
  unfold kSoft softE
  rw [divf_apply, kShift_apply, ksum_apply]
  exact congrArg (Ideal.div _) (Finset.sum_congr rfl fun c _ => kShift_apply o c)

/-- The re-laid weights read at slab `j`, row `i`, class `k`: the readout weight at flat position `64 i + j`. -/
theorem w_apply (x6 : Vec Ideal S4096x10 .f32) (i j : Fin 64) (k : Fin 10) :
    transpose S64x64x10 [1, 0, 2] (shapeCast S64x64x10 x6 shapeCasts_S4096x10_S64x64x10)
        transposes_S64x64x10_S64x64x10_1_0_2 (ix3 j i k)
      = x6 (ix2 (⟨i.val * 64 + j.val, by have := i.isLt; have := j.isLt; omega⟩ : Fin 4096) k) := by
  refine (transpose_apply _ _ transposes_S64x64x10_S64x64x10_1_0_2 (ix3 j i k) (ix3 i j k) fun c => ?_).trans ?_
  · match c with
    | ⟨0, _⟩ => rfl
    | ⟨1, _⟩ => rfl
    | ⟨2, _⟩ => rfl
  · refine shapeCast_apply x6 shapeCasts_S4096x10_S64x64x10 (ix3 i j k) _ ?_
    rw [Shape.rowMajor_val_two, Shape.rowMajor_val_three]
    rfl

/-- The sixty-four multiply-adds of the body, in the order its seven payloads make them, as one function of the
    matrix and the re-laid weights. -/
def tChain (v15 : Vec Ideal S64x64 .f32) (v16 : Vec Ideal S64x64x10 .f32) : FVec Ideal S64x10 .f32 :=
  pay22T v15 (k2_pay3 v16)
    (k2_pay19 v15 (k2_pay3 v16)
      (k2_pay16 v15 (k2_pay3 v16)
        (k2_pay13 v15 (k2_pay3 v16)
          (k2_pay10 v15 (k2_pay3 v16)
            (k2_pay7 v15 (k2_pay3 v16) (k2_pay4 v15 v16) (k2_pay5 v15) (k2_pay6 v16))
            (k2_pay8 v15) (k2_pay9 (k2_pay3 v16)))
          (k2_pay11 v15) (k2_pay12 (k2_pay3 v16)))
        (k2_pay14 v15) (k2_pay15 (k2_pay3 v16)))
      (k2_pay17 v15) (k2_pay18 (k2_pay3 v16)))
    (k2_pay20 v15) (k2_pay21 (k2_pay3 v16))

/-- The readout is the body's softmax of the body's logits of the sixty-four-term sums. -/
theorem readoutPay_eq (v15 : Vec Ideal S64x64 .f32) (v16 : Vec Ideal S64x64x10 .f32) (v405 : Vec Ideal S1x10 .f32) :
    readoutPay (F := Ideal) v15 v16 v405 = kSoft (kLogits (tChain v15 v16) v405) := by
  unfold readoutPay tChain
  exact pay22_eq _ _ _ _ _ _

/-- The body's logits against the re-laid weights and the bias row are the reference's logits: the column sum of the
    sixty-four-term sums is the one sum over the flattened matrix, regrouped by rows. -/
theorem logits_eq (h : Vec Ideal S64x64 .f32) (x6 : Vec Ideal S4096x10 .f32) (x7 : Vec Ideal S10 .f32) :
    kLogits (tChain h (transpose S64x64x10 [1, 0, 2] (shapeCast S64x64x10 x6 shapeCasts_S4096x10_S64x64x10)
        transposes_S64x64x10_S64x64x10_1_0_2)) (shapeCast S1x10 x7 shapeCasts_S10_S1x10)
      = Cert.ReferenceIdeal.Spec.logits (F := Ideal) h x6 x7 := by
  funext idx
  obtain ⟨u, k, rfl⟩ : ∃ (u : Fin 1) (k : Fin 10), idx = ix2 u k := ⟨idx 0, idx 1, eq_ix2 idx⟩
  obtain rfl : u = 0 := Subsingleton.elim _ _
  rw [kLogits_apply, Cert.ReferenceIdeal.Spec.R2Readout.logits_apply]
  refine congrArg₂ (· + ·) (Finset.sum_congr rfl fun i _ => ?_) (shapeCast_a_1a_apply x7 shapeCasts_S10_S1x10 (0 : Fin 1) k)
  unfold tChain
  rw [chain_apply, Finset.sum_range]
  refine Finset.sum_congr rfl fun j _ => ?_
  unfold rterm
  rw [dif_pos j.isLt]
  exact congrArg (h (ix2 i j) * ·) (w_apply x6 i j k)

/-- The body's softmax of a row is the reference's. -/
theorem soft_eq (o : FVec Ideal S1x10 .f32) : kSoft o = Cert.ReferenceIdeal.Spec.softmax (F := Ideal) o := by
  funext idx
  obtain ⟨u, k, rfl⟩ : ∃ (u : Fin 1) (k : Fin 10), idx = ix2 u k := ⟨idx 0, idx 1, eq_ix2 idx⟩
  obtain rfl : u = 0 := Subsingleton.elim _ _
  rw [kSoft_apply, Cert.ReferenceIdeal.Spec.R2Readout.softmax_apply]

end Cert.KernelIdeal.Hand.R2Readout

namespace Cert.KernelIdeal.Hand

open Cert.KernelIdeal Cert.KernelIdeal.Gen
open Idealize.ShloMosaic Idealize.ShloMosaic.TcCoe Idealize.SL.Sem
open Idealize.ShloMosaic.Pipeline (Dat)
open R2Readout

/-- Over the extended reals the body's readout of a matrix `h` against the re-laid weights and the bias row is the
    reference's softmax of the logits: the sixty-four multiply-adds and the column sum regroup the one sum over the
    flattened matrix, and the two softmaxes are the same operations. -/
theorem readout_eq (h : Vec Ideal S64x64 .f32) (x6 : Vec Ideal S4096x10 .f32) (x7 : Vec Ideal S10 .f32) :
    readoutPay (F := Ideal) h
        (transpose S64x64x10 [1, 0, 2] (shapeCast S64x64x10 x6 shapeCasts_S4096x10_S64x64x10) transposes_S64x64x10_S64x64x10_1_0_2)
        (shapeCast S1x10 x7 shapeCasts_S10_S1x10)
      = Cert.ReferenceIdeal.Spec.softmax (F := Ideal) (Cert.ReferenceIdeal.Spec.logits (F := Ideal) h x6 x7) :=
  (readoutPay_eq _ _ _).trans ((congrArg kSoft (logits_eq h x6 x7)).trans (soft_eq _))

end Cert.KernelIdeal.Hand

end
-- ==== Proof.Val.R2Arr.lean ====
import proofs.«426799_j87754771792351_4_alg».proof.Proof.Val.R2Pieces
import proofs.«426799_j87754771792351_4_alg».proof.Proof.Val.R2Gram
import proofs.«426799_j87754771792351_4_alg».proof.Proof.Val.R2Readout
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem t2_9_eq (h9 : 9 < cfg2.N) : (⟨9, h9⟩ : Fin cfg2.N) = t2_9 := Fin.ext rfl

/-- The weights window's block at the last point is its whole array (one block, never moving). -/
theorem iblk2_1_last (c : Dev nD) : iblk2 V c 1 t2_9 = V c main_v63 := by
  have hz' : (fun a => win2_1.index t2_9 a * main_v63.ty.shape.size a) = fun _ => 0 := funext fun a => by fin_cases a <;> decide
  exact Memref.read_access_unit_zero (Elt Ideal) main_v63 hz' (fun a => by rw [congrFun hz' a]; simp) (V c main_v63)

/-- The bias window's block at the last point is its whole array. -/
theorem iblk2_2_last (c : Dev nD) : iblk2 V c 2 t2_9 = V c main_v61 := by
  have hz' : (fun a => win2_2.index t2_9 a * main_v61.ty.shape.size a) = fun _ => 0 := funext fun a => by fin_cases a <;> decide
  exact Memref.read_access_unit_zero (Elt Ideal) main_v61 hz' (fun a => by rw [congrFun hz' a]; simp) (V c main_v61)

variable (x6 : Vec Ideal S4096x10 .f32) (x7 : Vec Ideal S10 .f32)

/-- The result row: the reference's operations after the second layer, of the region's first operand array. -/
abbrev result2 (c : Dev nD) : Buf (Elt Ideal) ((c : Thread nD τ).loc main_v64) :=
  Cert.ReferenceIdeal.Spec.tail (F := Ideal) (V c main_v60) x6 x7

/-- What the output buffer holds after the last point is the result row, when the weights window's array is the
    re-laid readout weights and the bias window's array the bias row. -/
theorem out_last (c : Dev nD)
    (h63 : V c main_v63 = transpose S64x64x10 [1, 0, 2] (shapeCast S64x64x10 x6 shapeCasts_S4096x10_S64x64x10) transposes_S64x64x10_S64x64x10_1_0_2)
    (h61 : V c main_v61 = shapeCast S1x10 x7 shapeCasts_S10_S1x10) :
    (outsAt2 V c t2_9.val t2_9.isLt).1 = result2 V x6 x7 c := by
  have h9 : 9 < cfg2.N := t2_9.isLt
  show (outsAt2 V c 9 h9).1 = _
  rw [outsAt_out V c h9, accS_last V c h9, t2_9_eq h9, iblk2_1_last V c, iblk2_2_last V c, h63, h61, readout_eq]
  rfl

/-- The one write-back, at the last point, writes the result row: the output's one block is its whole array. -/
theorem flushed2_eq (c : Dev nD)
    (h63 : V c main_v63 = transpose S64x64x10 [1, 0, 2] (shapeCast S64x64x10 x6 shapeCasts_S4096x10_S64x64x10) transposes_S64x64x10_S64x64x10_1_0_2)
    (h61 : V c main_v61 = shapeCast S1x10 x7 shapeCasts_S10_S1x10)
    (t : Fin cfg2.N) (hf : (cfg2.win 3).flush t = true) :
    (dat2 V c).flushed 3 t = ((cfg2.win 3).blk t).view.read (Elt Ideal) (result2 V x6 x7 c) := by
  have hN : cfg2.N = 10 := N_2
  have h3 : t.val = 9 := by have := (flush2_3 t).mp hf; have := t.isLt; omega
  obtain rfl : t = t2_9 := Fin.ext h3
  show (cfg2.win 3).cut (grid2.coords t2_9) ((dat2 V c).after 3 t2_9) = _
  rw [after2_3, out_last V x6 x7 c h63 h61]
  have hz' : (fun a => win2_3.index t2_9 a * main_v64.ty.shape.size a) = fun _ => 0 := funext fun a => by fin_cases a <;> decide
  exact (Memref.read_access_unit_zero (Elt Ideal) main_v64 hz' (fun a => by rw [congrFun hz' a]; simp) (result2 V x6 x7 c)).symm

/-- So the region's result array ends holding the result row. -/
theorem arr2 (c : Dev nD)
    (h63 : V c main_v63 = transpose S64x64x10 [1, 0, 2] (shapeCast S64x64x10 x6 shapeCasts_S4096x10_S64x64x10) transposes_S64x64x10_S64x64x10_1_0_2)
    (h61 : V c main_v61 = shapeCast S1x10 x7 shapeCasts_S10_S1x10) :
    (dat2 V c).arrAt 3 cfg2.N = result2 V x6 x7 c :=
  (dat2 V c).arrAt_eq_of_cover 3 (result2 V x6 x7 c) (flushed2_eq V x6 x7 c h63 h61) fun i =>
    ⟨t2_9, (flush2_3 t2_9).mpr rfl, by
      show i ∈ ((View.whole main_v64).slice (win2_3.rect t2_9)).set
      rw [View.set_slice_whole, Rect.mem_set_unit]
      intro a
      have h0 : (i 0 : Nat) < 1 := (i 0).isLt
      have h1 : (i 1 : Nat) < 10 := (i 1).isLt
      match a with
      | ⟨0, _⟩ => show win2_3.index t2_9 0 * win2_3.size 0 ≤ (i 0 : Nat) ∧ (i 0 : Nat) < win2_3.index t2_9 0 * win2_3.size 0 + win2_3.xsize (grid2.coords t2_9) 0
                  rw [show win2_3.index t2_9 0 * win2_3.size 0 = 0 from by decide +kernel, show win2_3.xsize (grid2.coords t2_9) 0 = 1 from by decide +kernel]; omega
      | ⟨1, _⟩ => show win2_3.index t2_9 1 * win2_3.size 1 ≤ (i 1 : Nat) ∧ (i 1 : Nat) < win2_3.index t2_9 1 * win2_3.size 1 + win2_3.xsize (grid2.coords t2_9) 1
                  rw [show win2_3.index t2_9 1 * win2_3.size 1 = 0 from by decide +kernel, show win2_3.xsize (grid2.coords t2_9) 1 = 10 from by decide +kernel]; omega⟩

end Cert.KernelIdeal.Hand

end
-- ==== Proof.KI.Args.lean ====
/-
  The argument arrays at the last boundary of the run are the launch contents: a host stretch writes only its own
  results, and a region changes only its output array.
-/
import proofs.«426799_j87754771792351_4_alg».proof.Proof.KI.Run
import proofs.«426799_j87754771792351_4_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` reaches the last boundary as launched: no host stretch writes it and no region changes it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (show main_arg0 ∉ hostOps2_W by decide)
    _ = W3 m ρ c (Proc.devRef .tc main_arg0) := W4_of_ne m ρ c main_arg0 (by decide)
    _ = W2 m ρ c (Proc.devRef .tc main_arg0) := StableHlo.after_of_writes_sub hostOps1 _ hostOps1_writes (show main_arg0 ∉ hostOps1_W by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (show main_arg0 ∉ hostOps0_W by decide)
    _ = m ((c : Thread nD τ).loc main_arg0) := rfl

/-- `main_arg1` reaches the last boundary as launched: no host stretch writes it and no region changes it. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (show main_arg1 ∉ hostOps2_W by decide)
    _ = W3 m ρ c (Proc.devRef .tc main_arg1) := W4_of_ne m ρ c main_arg1 (by decide)
    _ = W2 m ρ c (Proc.devRef .tc main_arg1) := StableHlo.after_of_writes_sub hostOps1 _ hostOps1_writes (show main_arg1 ∉ hostOps1_W by decide)
    _ = W1 m ρ c (Proc.devRef .tc main_arg1) := W2_of_ne m ρ c main_arg1 (by decide)
    _ = W0 m ρ c (Proc.devRef .tc main_arg1) := StableHlo.after_of_writes_sub hostOps0 _ hostOps0_writes (show main_arg1 ∉ hostOps0_W by decide)
    _ = m ((c : Thread nD τ).loc main_arg1) := rfl

/-- `main_arg2` reaches the last boundary as launched: no host stretch writes it and no region changes it. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (show main_arg2 ∉ hostOps2_W by decide)
    _ = W3 m ρ c (Proc.devRef .tc main_arg2) := W4_of_ne m ρ c main_arg2 (by decide)
    _ = W2 m ρ c (Proc.devRef .tc main_arg2) := StableHlo.after_of_writes_sub hostOps1 _ hostOps1_writes (show main_arg2 ∉ hostOps1_W by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (show main_arg2 ∉ hostOps0_W by decide)
    _ = m ((c : Thread nD τ).loc main_arg2) := rfl

/-- `main_arg3` reaches the last boundary as launched: no host stretch writes it and no region changes it. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (show main_arg3 ∉ hostOps2_W by decide)
    _ = W3 m ρ c (Proc.devRef .tc main_arg3) := W4_of_ne m ρ c main_arg3 (by decide)
    _ = W2 m ρ c (Proc.devRef .tc main_arg3) := StableHlo.after_of_writes_sub hostOps1 _ hostOps1_writes (show main_arg3 ∉ hostOps1_W by decide)
    _ = W1 m ρ c (Proc.devRef .tc main_arg3) := W2_of_ne m ρ c main_arg3 (by decide)
    _ = W0 m ρ c (Proc.devRef .tc main_arg3) := StableHlo.after_of_writes_sub hostOps0 _ hostOps0_writes (show main_arg3 ∉ hostOps0_W by decide)
    _ = m ((c : Thread nD τ).loc main_arg3) := rfl

/-- `main_arg4` reaches the last boundary as launched: no host stretch writes it and no region changes it. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (show main_arg4 ∉ hostOps2_W by decide)
    _ = W3 m ρ c (Proc.devRef .tc main_arg4) := (W4_arr m ρ c 1).trans (((dat1 (V3 m ρ) c).arrAt_in 1 rfl _).trans (A_eq1 (V3 m ρ) c 1))
    _ = W2 m ρ c (Proc.devRef .tc main_arg4) := StableHlo.after_of_writes_sub hostOps1 _ hostOps1_writes (show main_arg4 ∉ hostOps1_W by decide)
    _ = W1 m ρ c (Proc.devRef .tc main_arg4) := W2_of_ne m ρ c main_arg4 (by decide)
    _ = W0 m ρ c (Proc.devRef .tc main_arg4) := StableHlo.after_of_writes_sub hostOps0 _ hostOps0_writes (show main_arg4 ∉ hostOps0_W by decide)
    _ = m ((c : Thread nD τ).loc main_arg4) := rfl

/-- `main_arg5` reaches the last boundary as launched: no host stretch writes it and no region changes it. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (show main_arg5 ∉ hostOps2_W by decide)
    _ = W3 m ρ c (Proc.devRef .tc main_arg5) := W4_of_ne m ρ c main_arg5 (by decide)
    _ = W2 m ρ c (Proc.devRef .tc main_arg5) := StableHlo.after_of_writes_sub hostOps1 _ hostOps1_writes (show main_arg5 ∉ hostOps1_W by decide)
    _ = W1 m ρ c (Proc.devRef .tc main_arg5) := W2_of_ne m ρ c main_arg5 (by decide)
    _ = W0 m ρ c (Proc.devRef .tc main_arg5) := StableHlo.after_of_writes_sub hostOps0 _ hostOps0_writes (show main_arg5 ∉ hostOps0_W by decide)
    _ = m ((c : Thread nD τ).loc main_arg5) := rfl

/-- `main_arg6` reaches the last boundary as launched: no host stretch writes it and no region changes it. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (show main_arg6 ∉ hostOps2_W by decide)
    _ = W3 m ρ c (Proc.devRef .tc main_arg6) := W4_of_ne m ρ c main_arg6 (by decide)
    _ = W2 m ρ c (Proc.devRef .tc main_arg6) := StableHlo.after_of_writes_sub hostOps1 _ hostOps1_writes (show main_arg6 ∉ hostOps1_W by decide)
    _ = W1 m ρ c (Proc.devRef .tc main_arg6) := W2_of_ne m ρ c main_arg6 (by decide)
    _ = W0 m ρ c (Proc.devRef .tc main_arg6) := StableHlo.after_of_writes_sub hostOps0 _ hostOps0_writes (show main_arg6 ∉ hostOps0_W by decide)
    _ = m ((c : Thread nD τ).loc main_arg6) := rfl

/-- `main_arg7` reaches the last boundary as launched: no host stretch writes it and no region changes it. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (show main_arg7 ∉ hostOps2_W by decide)
    _ = W3 m ρ c (Proc.devRef .tc main_arg7) := W4_of_ne m ρ c main_arg7 (by decide)
    _ = W2 m ρ c (Proc.devRef .tc main_arg7) := StableHlo.after_of_writes_sub hostOps1 _ hostOps1_writes (show main_arg7 ∉ hostOps1_W by decide)
    _ = W1 m ρ c (Proc.devRef .tc main_arg7) := W2_of_ne m ρ c main_arg7 (by decide)
    _ = W0 m ρ c (Proc.devRef .tc main_arg7) := StableHlo.after_of_writes_sub hostOps0 _ hostOps0_writes (show main_arg7 ∉ hostOps0_W by decide)
    _ = m ((c : Thread nD τ).loc main_arg7) := rfl

/-- The frame: every weakly fair execution of @main terminates and leaves the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c)⟩)
    (run_all m ρ)

end Cert.KernelIdeal.Hand

end
-- ==== Proof.Val.Final.lean ====
/-
  The idealized kernel's run, read: the result row the last region writes is the reference's value of the launch
  arrays. Region 2's output is the softmax of the logits of the Gram matrix of its operand, which the third host
  stretch made the second layer's output; the second layer's input the first layer's output; and so back to the
  launch arrays, every host operation between the regions being the reference's own.
-/
import proofs.«426799_j87754771792351_4_alg».proof.Proof.Val.B2a
import proofs.«426799_j87754771792351_4_alg».proof.Proof.Val.B2b
import proofs.«426799_j87754771792351_4_alg».proof.Proof.Val.R2Arr
import proofs.«426799_j87754771792351_4_alg».proof.Proof.KI.Args
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.Read Cert.ReferenceIdeal.Spec

variable (m : (ℓ : Loc nD τ sig) → Buf (Elt Ideal) ℓ) (ρ : Dev nD → PrngReg)

theorem W6_v64 (c : Dev nD) : W6 m ρ c (Proc.devRef .tc main_v64) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h := (W6_arr m ρ c 3).trans (arr2 (V5 m ρ) (m ((c : Thread nD τ).loc main_arg6)) (m ((c : Thread nD τ).loc main_arg7)) c (e63 m ρ c) (e61 m ρ c))
  have a : V5 m ρ c main_v60 = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := e60 m ρ c
  dsimp only [result2] at h
  rw [a] at h
  exact h.trans (val77_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm

/-- Every weakly fair execution of the idealized kernel's @main terminates; the result buffer ends at the reference's
    value of the launch arrays, and the argument arrays end as launched. -/
theorem run_val : θ_run defs (onTc (τ := τ) (main (F := Ideal))) ⟨m, fun _ => 0, ρ⟩ (fun r => ∀ c : Dev nD,
      r.2.mem ((c.tc : Thread nD τ).loc main_v64) = val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v64 (by decide))).trans (W6_v64 m ρ c),
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c)⟩)
    (run_all m ρ)

end Cert.KernelIdeal.Hand

end
-- ==== Proof.lean ====
/-
  The certificate of a two-layer graph convolution with an attention-style readout. The kernel computes the two
  feature projections and the readout in three pipelined regions (a row-blocked matrix product twice; then the Gram
  matrix of the second layer's output accumulated block by block in a scratch buffer, and at the last grid point the
  logits and their softmax), and leaves the gather / scatter-add aggregation over the edges to host operations; the
  reference computes everything by host operations. Read over the extended reals the two agree: a change of float
  format is the identity, a matrix product into a zero accumulator is the plain sum, and every sum the kernel groups
  by blocks, by rows or by an unrolled chain is the reference's one sum regrouped (addition of extended reals is
  commutative and associative; no other law is used, so the precondition is never opened). The frames come from
  the run of @main as six segments, each region's arrays read back from what its write-backs leave.
-/
import proofs.«426799_j87754771792351_4_alg».proof.Defs
import proofs.«426799_j87754771792351_4_alg».proof.Proof.Gen.Kernel
import proofs.«426799_j87754771792351_4_alg».proof.Proof.Gen.KernelIdeal
import proofs.«426799_j87754771792351_4_alg».proof.Proof.Gen.ReferenceIdeal
import proofs.«426799_j87754771792351_4_alg».proof.Proof.Gen.Pre_finite_inputs
import proofs.«426799_j87754771792351_4_alg».proof.Proof.K.Args
import proofs.«426799_j87754771792351_4_alg».proof.Proof.Val.Final
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end at the reference's value of those arguments. -/
theorem algebraic : Cert.algebraic_KernelIdeal_ReferenceIdeal := by
  intro m ρ m' ρ' _ hagree
  refine ⟨_, Cert.KernelIdeal.Hand.run_val m ρ, ?_⟩
  refine (θ_run Cert.ReferenceIdeal.defs _ _).mono (fun _ h c => ⟨(h c).1.trans ?_, (h c).2⟩)
    (Cert.ReferenceIdeal.Value.run (F := Ideal) m' ρ')
  have e := Cert.ReferenceIdeal.Read.val_main_v77_eq (F := Ideal) m' c
  rw [(hagree c).1, (hagree c).2.1, (hagree c).2.2.1, (hagree c).2.2.2.1, (hagree c).2.2.2.2.1, (hagree c).2.2.2.2.2.1, (hagree c).2.2.2.2.2.2.1, (hagree c).2.2.2.2.2.2.2] at e
  exact e

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
